-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S12x128 : Shape := ⟨2, ![12, 128]⟩
abbrev S128 : Shape := ⟨1, ![128]⟩
abbrev S128x128 : Shape := ⟨2, ![128, 128]⟩
abbrev S128x13 : Shape := ⟨2, ![128, 13]⟩
abbrev S13 : Shape := ⟨1, ![13]⟩
abbrev S2x1600000 : Shape := ⟨2, ![2, 1600000]⟩
abbrev S13x13 : Shape := ⟨2, ![13, 13]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x13 : S_.BroadcastsInDim S128x13 (![] : Fin 0 → Fin S128x13.rank)
  reducesTo_S128x13_S_d0_1 : S128x13.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg7 : FVec F S128x13 .f32) (main_arg8 : FVec F S128x13 .f32) (main_arg9 : FVec F S13 .f32) (main_v33 : IVec S_ 1) : IVec S_ 1 :=
  let main_v34 : FVec F S128x13 .f32 := Host.absf main_arg7
  let main_cst_12 : FVec F S_ .f32 := constant S_ .f32 0x7F800000#32
  let main_v35 : FVec F S128x13 .f32 := broadcastInDim S128x13 ![] bcast_S_S128x13 main_cst_12
  let main_v36 : IVec S128x13 1 := cmpf .olt main_v34 main_v35
  let main_c_13 : IVec S_ 1 := constantI S_ 1 1#1
  let main_v37 : IVec S_ 1 := (fun x v => Host.reduce IntOp.andi x v reducesTo_S128x13_S_d0_1 h_S_) main_v36 main_c_13
  let main_v38 : IVec S_ 1 := andi main_v33 main_v37
  let main_v39 : FVec F S128x13 .f32 := Host.absf main_arg8
  let main_cst_14 : FVec F S_ .f32 := constant S_ .f32 0x7F800000#32
  let main_v40 : FVec F S128x13 .f32 := broadcastInDim S128x13 ![] bcast_S_S128x13 main_cst_14
  let main_v41 : IVec S128x13 1 := cmpf .olt main_v39 main_v40
  let main_c_15 : IVec S_ 1 := constantI S_ 1 1#1
  let main_v42 : IVec S_ 1 := (fun x v => Host.reduce IntOp.andi x v reducesTo_S128x13_S_d0_1 h_S_) main_v41 main_c_15
  let main_v43 : IVec S_ 1 := andi main_v38 main_v42
  let main_v44 : FVec F S13 .f32 := Host.absf main_arg9
  let main_cst_16 : FVec F S_ .f32 := constant S_ .f32 0x7F800000#32
  let main_v45 : FVec F S13 .f32 := broadcastInDim S13 ![] bcast_S_S13 main_cst_16
  let main_v46 : IVec S13 1 := cmpf .olt main_v44 main_v45
  let main_c_17 : IVec S_ 1 := constantI S_ 1 1#1
  let main_v47 : IVec S_ 1 := (fun x v => Host.reduce IntOp.andi x v reducesTo_S13_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S128x13 .f32) (main_arg8 : FVec F S128x13 .f32) (main_arg9 : FVec F S13 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x12 .f32) (main_arg1 : FVec F S12x128 .f32) (main_arg2 : FVec F S12x128 .f32) (main_arg3 : FVec F S128 .f32) (main_arg4 : FVec F S128x128 .f32) (main_arg5 : FVec F S128x128 .f32) (main_arg6 : FVec F S128 .f32) (main_arg7 : FVec F S128x13 .f32) (main_arg8 : FVec F S128x13 .f32) (main_arg9 : FVec F S13 .f32) (main_arg10 : IVec S2x1600000 32) (main_arg11 : IVec S13x13 32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x128 .f32 := Host.absf main_arg1
  let main_cst_0 : FVec F S_ .f32 := constant S_ .f32 0x7F800000#32
  let main_v5 : FVec F S12x128 .f32 := broadcastInDim S12x128 ![] bcast_S_S12x128 main_cst_0
  let main_v6 : IVec S12x128 1 := cmpf .olt main_v4 main_v5
  let main_c_1 : IVec S_ 1 := constantI S_ 1 1#1
  let main_v7 : IVec S_ 1 := (fun x v => Host.reduce IntOp.andi x v reducesTo_S12x128_S_d0_1 h_S_) main_v6 main_c_1
  let main_v8 : IVec S_ 1 := andi main_v3 main_v7
  let main_v9 : FVec F S12x128 .f32 := Host.absf main_arg2
  let main_cst_2 : FVec F S_ .f32 := constant S_ .f32 0x7F800000#32
  let main_v10 : FVec F S12x128 .f32 := broadcastInDim S12x128 ![] bcast_S_S12x128 main_cst_2
  let main_v11 : IVec S12x128 1 := cmpf .olt main_v9 main_v10
  let main_c_3 : IVec S_ 1 := constantI S_ 1 1#1
  let main_v12 : IVec S_ 1 := (fun x v => Host.reduce IntOp.andi x v reducesTo_S12x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x12 : Shape := ⟨2, ![100000, 12]⟩
abbrev S12x128 : Shape := ⟨2, ![12, 128]⟩
abbrev S128 : Shape := ⟨1, ![128]⟩
abbrev S128x128 : Shape := ⟨2, ![128, 128]⟩
abbrev S128x13 : Shape := ⟨2, ![128, 13]⟩
abbrev S13 : Shape := ⟨1, ![13]⟩
abbrev S2x1600000 : Shape := ⟨2, ![2, 1600000]⟩
abbrev S13x13 : Shape := ⟨2, ![13, 13]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x12 : Shape := ⟨2, ![1600000, 12]⟩
abbrev S100000 : Shape := ⟨1, ![100000]⟩
abbrev S100000x1 : Shape := ⟨2, ![100000, 1]⟩
abbrev S100000x128 : Shape := ⟨2, ![100000, 128]⟩
abbrev S5000x12 : Shape := ⟨2, ![5000, 12]⟩
abbrev S5000x128 : Shape := ⟨2, ![5000, 128]⟩
abbrev S1x128 : Shape := ⟨2, ![1, 128]⟩
abbrev S1600000x128 : Shape := ⟨2, ![1600000, 128]⟩
abbrev S100000x13 : Shape := ⟨2, ![100000, 13]⟩
abbrev S5000x13 : Shape := ⟨2, ![5000, 13]⟩
abbrev S1x13 : Shape := ⟨2, ![1, 13]⟩
abbrev S5000 : Shape := ⟨1, ![5000]⟩
abbrev S5000x1 : Shape := ⟨2, ![5000, 1]⟩

abbrev nBuf : Space → Nat
  | .hbm => 95
  | .vmem => 28
  | .smem => 0
  | _ => 0

abbrev bufTy : (tb : Table) → Fin (tcTables nBuf tb) → BufTy
  | .hbm, ⟨0, _⟩ => ⟨S100000x12, .f32⟩
  | .hbm, ⟨1, _⟩ => ⟨S12x128, .f32⟩
  | .hbm, ⟨2, _⟩ => ⟨S12x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x13, .f32⟩
  | .hbm, ⟨8, _⟩ => ⟨S128x13, .f32⟩
  | .hbm, ⟨9, _⟩ => ⟨S13, .f32⟩
  | .hbm, ⟨10, _⟩ => ⟨S2x1600000, .i32⟩
  | .hbm, ⟨11, _⟩ => ⟨S13x13, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x12, .f32⟩
  | .hbm, ⟨25, _⟩ => ⟨S_, .f32⟩
  | .hbm, ⟨26, _⟩ => ⟨S100000x12, .f32⟩
  | .hbm, ⟨27, _⟩ => ⟨S1600000x1, .i32⟩
  | .hbm, ⟨28, _⟩ => ⟨S100000x12, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x12, .f32⟩
  | .hbm, ⟨40, _⟩ => ⟨S100000x12, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S13x13, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S100000x13, .f32⟩
  | .local _ .vmem, ⟨0, _⟩ => ⟨S5000x12, .f32⟩
  | .local _ .vmem, ⟨1, _⟩ => ⟨S5000x12, .f32⟩
  | .local _ .vmem, ⟨2, _⟩ => ⟨S5000x12, .f32⟩
  | .local _ .vmem, ⟨3, _⟩ => ⟨S5000x12, .f32⟩
  | .local _ .vmem, ⟨4, _⟩ => ⟨S12x128, .f32⟩
  | .local _ .vmem, ⟨5, _⟩ => ⟨S12x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x13, .f32⟩
  | .local _ .vmem, ⟨23, _⟩ => ⟨S128x13, .f32⟩
  | .local _ .vmem, ⟨24, _⟩ => ⟨S13, .f32⟩
  | .local _ .vmem, ⟨25, _⟩ => ⟨S13x13, .f32⟩
  | .local _ .vmem, ⟨26, _⟩ => ⟨S5000x13, .f32⟩
  | .local _ .vmem, ⟨27, _⟩ => ⟨S5000x13, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x13 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x13 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S13 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S13x13 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x13 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x12 : S_.BroadcastsInDim S100000x12 (![] : Fin 0 → Fin S100000x12.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  inb_S5000x12_S5000x12_0_0 : ∀ a, (![0, 0] : Fin 2 → Nat) a + S5000x12.size a ≤ S5000x12.size a
  h_S5000x12 : 0 < S5000x12.numel
  shapeCasts_S5000x12_S5000x12 : S5000x12.ShapeCasts S5000x12
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x13_S128x13_0_0 : ∀ a, (![0, 0] : Fin 2 → Nat) a + S128x13.size a ≤ S128x13.size a
  h_S128x13 : 0 < S128x13.numel
  inb_S13_S13_0 : ∀ a, (![0] : Fin 1 → Nat) a + S13.size a ≤ S13.size a
  h_S13 : 0 < S13.numel
  shapeCasts_S13_S1x13 : S13.ShapeCasts S1x13
  broadcasts_S1x13_S5000x13 : S1x13.Broadcasts S5000x13
  inb_S13x13_S13x13_0_0 : ∀ a, (![0, 0] : Fin 2 → Nat) a + S13x13.size a ≤ S13x13.size a
  h_S13x13 : 0 < S13x13.numel
  shapeCasts_S13x13_S13x13 : S13x13.ShapeCasts S13x13
  slices_S13x13_o0_0_S1x13 : S13x13.Slices ![0, 0] S1x13
  shapeCasts_S1x13_S13 : S1x13.ShapeCasts S13
  shapeCasts_S1x13_S1x13 : S1x13.ShapeCasts S1x13
  reduces_S5000x13_S5000 : S5000x13.Reduces [1] S5000
  shapeCasts_S5000_S5000x1 : S5000.ShapeCasts S5000x1
  slices_S13x13_o1_0_S1x13 : S13x13.Slices ![1, 0] S1x13
  slices_S13x13_o2_0_S1x13 : S13x13.Slices ![2, 0] S1x13
  slices_S13x13_o3_0_S1x13 : S13x13.Slices ![3, 0] S1x13
  slices_S13x13_o4_0_S1x13 : S13x13.Slices ![4, 0] S1x13
  slices_S13x13_o5_0_S1x13 : S13x13.Slices ![5, 0] S1x13
  slices_S13x13_o6_0_S1x13 : S13x13.Slices ![6, 0] S1x13
  slices_S13x13_o7_0_S1x13 : S13x13.Slices ![7, 0] S1x13
  slices_S13x13_o8_0_S1x13 : S13x13.Slices ![8, 0] S1x13
  slices_S13x13_o9_0_S1x13 : S13x13.Slices ![9, 0] S1x13
  slices_S13x13_o10_0_S1x13 : S13x13.Slices ![10, 0] S1x13
  slices_S13x13_o11_0_S1x13 : S13x13.Slices ![11, 0] S1x13
  slices_S13x13_o12_0_S1x13 : S13x13.Slices ![12, 0] S1x13
  concatenates_S5000x1_S5000x1_S5000x1_S5000x1_S5000x1_S5000x1_S5000x1_S5000x1_S5000x1_S5000x1_S5000x1_S5000x1_S5000x1_S5000x13_d1 : Shape.Concatenates [S5000x1, S5000x1, S5000x1, S5000x1, S5000x1, S5000x1, S5000x1, S5000x1, S5000x1, S5000x1, S5000x1, S5000x1, S5000x1] S5000x13 1
  inb_S5000x13_S5000x13_0_0 : ∀ a, (![0, 0] : Fin 2 → Nat) a + S5000x13.size a ≤ S5000x13.size a
  h_S5000x13 : 0 < S5000x13.numel
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  scatter_S100000_S1600000x1_S1600000_n_0_0_1_wf : ScatterDims.WF S100000 S1600000x1 S1600000 [] [0] [0] 1
  dot_S5000x12_S12x128_S5000x128_1_0_0_1_n_n_wf : DotDims.WF S5000x12 S12x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x13_S5000x13_1_0_0_1_n_n_wf : DotDims.WF S5000x128 S128x13 S5000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x12.size a ≤ S100000x12.size a
  hwx0_1 : ∀ i : grid0.Coords, EltTy.bits .f32 = 32 ∨ (Rect.block (s := S100000x12) S5000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x128.size a ≤ S12x128.size a
  hwx0_2 : ∀ i : grid0.Coords, EltTy.bits .f32 = 32 ∨ (Rect.block (s := S12x128) S12x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x128.size a ≤ S12x128.size a
  hwx0_3 : ∀ i : grid0.Coords, EltTy.bits .f32 = 32 ∨ (Rect.block (s := S12x128) S12x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x13.size a ≤ S128x13.size a
  hwx2_2 : ∀ i : grid2.Coords, EltTy.bits .f32 = 32 ∨ (Rect.block (s := S128x13) S128x13.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x13.size a ≤ S128x13.size a
  hwx2_3 : ∀ i : grid2.Coords, EltTy.bits .f32 = 32 ∨ (Rect.block (s := S128x13) S128x13.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S13.size a ≤ S13.size a
  hwx2_4 : ∀ i : grid2.Coords, EltTy.bits .f32 = 32 ∨ (Rect.block (s := S13) S13.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S13x13.size a ≤ S13x13.size a
  hwx2_5 : ∀ i : grid2.Coords, EltTy.bits .f32 = 32 ∨ (Rect.block (s := S13x13) S13x13.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x13.size a ≤ S100000x13.size a
  hwx2_6 : ∀ i : grid2.Coords, EltTy.bits .f32 = 32 ∨ (Rect.block (s := S100000x13) S5000x13.size (cc2_transform_6 i) (hinb2_6 i)).WholeWords (EltTy.packing .f32)

variable [Facts₀]

def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x12_S12x128_S5000x128_1_0_0_1_n_n : DotDims S5000x12 S12x128 S5000x128 where
  lhsContracting := [1]
  rhsContracting := [0]
  lhsNonContracting := [0]
  rhsNonContracting := [1]
  lhsBatch := []
  rhsBatch := []
  wf := dot_S5000x12_S12x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x13_S5000x13_1_0_0_1_n_n : DotDims S5000x128 S128x13 S5000x13 where
  lhsContracting := [1]
  rhsContracting := [0]
  lhsNonContracting := [0]
  rhsNonContracting := [1]
  lhsBatch := []
  rhsBatch := []
  wf := dot_S5000x128_S128x13_S5000x13_1_0_0_1_n_n_wf

abbrev win0_0 : Pipeline.Window sig grid0 :=
  Pipeline.Window.ofSpec (Memref.whole main_v22) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S12x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S12x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x13.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x13.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S13.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S13x13.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S5000x13.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x12 : Shape := ⟨2, ![100000, 12]⟩
abbrev S12x128 : Shape := ⟨2, ![12, 128]⟩
abbrev S128 : Shape := ⟨1, ![128]⟩
abbrev S128x128 : Shape := ⟨2, ![128, 128]⟩
abbrev S128x13 : Shape := ⟨2, ![128, 13]⟩
abbrev S13 : Shape := ⟨1, ![13]⟩
abbrev S2x1600000 : Shape := ⟨2, ![2, 1600000]⟩
abbrev S13x13 : Shape := ⟨2, ![13, 13]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x12 : Shape := ⟨2, ![1600000, 12]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x13 : Shape := ⟨2, ![100000, 13]⟩
abbrev S1x13 : Shape := ⟨2, ![1, 13]⟩
abbrev S1x13x13 : Shape := ⟨3, ![1, 13, 13]⟩
abbrev S100000x1x13 : Shape := ⟨3, ![100000, 1, 13]⟩
abbrev S100000x13x13 : Shape := ⟨3, ![100000, 13, 13]⟩

abbrev nBuf : Space → Nat
  | .hbm => 131
  | .vmem => 0
  | .smem => 0
  | _ => 0

abbrev hbmTy0_0 (i : Nat) : BufTy := match i % 128 with
  | 0 => ⟨S100000x12, .f32⟩
  | 1 => ⟨S12x128, .f32⟩
  | 2 => ⟨S12x128, .f32⟩
  | 3 => ⟨S128, .f32⟩
  | 4 => ⟨S128x128, .f32⟩
  | 5 => ⟨S128x128, .f32⟩
  | 6 => ⟨S128, .f32⟩
  | 7 => ⟨S128x13, .f32⟩
  | 8 => ⟨S128x13, .f32⟩
  | 9 => ⟨S13, .f32⟩
  | 10 => ⟨S2x1600000, .i32⟩
  | 11 => ⟨S13x13, .i32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x12, .f32⟩
  | 25 => ⟨S_, .f32⟩
  | 26 => ⟨S100000x12, .f32⟩
  | 27 => ⟨S1600000x1, .i32⟩
  | 28 => ⟨S100000x12, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x12, .f32⟩
  | 40 => ⟨S100000x12, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x128, .f32⟩
  | 108 => ⟨S100000x128, .f32⟩
  | 109 => ⟨S100000x13, .f32⟩
  | 110 => ⟨S100000x13, .f32⟩
  | 111 => ⟨S100000x13, .f32⟩
  | 112 => ⟨S1x13, .f32⟩
  | 113 => ⟨S100000x13, .f32⟩
  | 114 => ⟨S100000x13, .f32⟩
  | 115 => ⟨S100000x13, .f32⟩
  | 116 => ⟨S100000x13, .f32⟩
  | 117 => ⟨S_, .f32⟩
  | 118 => ⟨S100000x13, .f32⟩
  | 119 => ⟨S100000x13, .f32⟩
  | 120 => ⟨S_, .f32⟩
  | 121 => ⟨S100000x13, .f32⟩
  | 122 => ⟨S100000x13, .f32⟩
  | 123 => ⟨S13x13, .f32⟩
  | 124 => ⟨S1x13x13, .f32⟩
  | 125 => ⟨S100000x1x13, .f32⟩
  | 126 => ⟨S100000x13x13, .f32⟩
  | 127 => ⟨S100000x13x13, .f32⟩
  | _ => ⟨S100000x12, .f32⟩

abbrev hbmTy0_1 (i : Nat) : BufTy := match i % 128 with
  | 0 => ⟨S100000x13x13, .f32⟩
  | 1 => ⟨S_, .f32⟩
  | 2 => ⟨S100000x13, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x12 : S_.BroadcastsInDim S100000x12 (![] : Fin 0 → Fin S100000x12.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S13_S1x13_1 : S13.BroadcastsInDim S1x13 (![1] : Fin 1 → Fin S1x13.rank)
  bcast_S1x13_S100000x13_0_1 : S1x13.BroadcastsInDim S100000x13 (![0, 1] : Fin 2 → Fin S100000x13.rank)
  bcast_S_S100000x13 : S_.BroadcastsInDim S100000x13 (![] : Fin 0 → Fin S100000x13.rank)
  bcast_S13x13_S1x13x13_1_2 : S13x13.BroadcastsInDim S1x13x13 (![1, 2] : Fin 2 → Fin S1x13x13.rank)
  bcast_S100000x13_S100000x1x13_0_2 : S100000x13.BroadcastsInDim S100000x1x13 (![0, 2] : Fin 2 → Fin S100000x1x13.rank)
  bcast_S1x13x13_S100000x13x13_0_1_2 : S1x13x13.BroadcastsInDim S100000x13x13 (![0, 1, 2] : Fin 3 → Fin S100000x13x13.rank)
  bcast_S100000x1x13_S100000x13x13_0_1_2 : S100000x1x13.BroadcastsInDim S100000x13x13 (![0, 1, 2] : Fin 3 → Fin S100000x13x13.rank)
  reducesTo_S100000x13x13_S100000x13_d2 : S100000x13x13.ReducesTo [2] S100000x13
  h_S_ : 0 < S_.numel
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  scatter_S100000_S1600000x1_S1600000_n_0_0_1_wf : ScatterDims.WF S100000 S1600000x1 S1600000 [] [0] [0] 1
  dot_S100000x12_S12x128_S100000x128_1_0_0_1_n_n_wf : DotDims.WF S100000x12 S12x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x13_S100000x13_1_0_0_1_n_n_wf : DotDims.WF S100000x128 S128x13 S100000x13 [1] [0] [0] [1] [] []

variable [Facts₀]

def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x13_S100000x13_1_0_0_1_n_n : DotDims S100000x128 S128x13 S100000x13 where
  lhsContracting := [1]
  rhsContracting := [0]
  lhsNonContracting := [0]
  rhsNonContracting := [1]
  lhsBatch := []
  rhsBatch := []
  wf := dot_S100000x128_S128x13_S100000x13_1_0_0_1_n_n_wf

class Facts : Prop extends Facts₀ where

variable [Facts]
-- ==== Proof.Layers.lean ====
/-
  The reference's three graph-convolution layers as functions of a layer's own inputs.

  A layer takes node features `h` (one row per node), forms for every node the mean of its in-neighbours'
  rows (`mean`: gather the source rows of all edges, add each into its destination's row, divide by the
  in-degree, at least one), and returns `act (mean · Wl + h · Wr + b)`: `act` is `max (·, 0)` in the first two
  layers; in the last it is the logistic function followed by the hierarchy maximum
  `out[n, i] = max_j R[i, j] · y[n, j]`.

  The reference program's stages (the generated read-at-an-index module) are these functions composed:
  `stage_h1`, `stage_mean1`, `stage_h2`, `stage_mean2`, `stage_out` say so, each by unfolding.
  The index forms `dense1_apply`, `dense2_apply`, `preact3_apply`, `dense3_eq` read a layer at one node and one
  output feature: a matrix product is the sum over the contracted feature.
-/
import proofs.«122154_j34763465294563_1_alg».proof.Proof.Gen.ReferenceIdeal.Read

set_option maxRecDepth 16384

noncomputable section

namespace Cert.Layers

open Cert.ReferenceIdeal Cert.ReferenceIdeal.Gen Cert.ReferenceIdeal.Read Idealize.ShloMosaic Idealize.ShloMosaic.TcCoe Idealize.ShloMosaic.StableHlo

variable {F : FTy → Type} [FloatOps F]

/-- An array of the reference program: a function of the shape's indices. -/
abbrev Arr (F : FTy → Type) (s : Shape) (e : EltTy) := (⟨s, e⟩ : BufTy).Contents (Elt F)

/-! ## The layers -/

/-- The neighbour mean of 12-wide features: the reference's first aggregation, of its two arguments. -/
def mean12 (h : Arr F S100000x12 .f32) (ei : Arr F S2x1600000 .i32) : Arr F S100000x12 .f32 :=
  val_main_v22 (F := F) h ei

/-- The neighbour mean of 128-wide features, over the same edge list: rows gathered at the sources (negative
    indices wrapped), added into the destinations' rows, divided by the in-degree (at least one). -/
def mean128 (h : Arr F S100000x128 .f32) (ei : Arr F S2x1600000 .i32) : Arr F S100000x128 .f32 :=
  Host.divf
    (Host.scatterAdd scatter_S100000x128_S1600000x1_S1600000x128_1_0_0_1 (val_main_v37 (F := F)) (val_main_v38 (F := F) ei)
      (Host.gather gather_S100000x128_S1600000x1_S1600000x128_1_0_n_n_0_1_1128 h (val_main_v35 (F := F) ei)))
    (val_main_v47 (F := F) ei)

/-- The product of a [100000, 12] array with a [12, 128] matrix (the reference's `dot_general`). -/
abbrev mm12 (a : Arr F S100000x12 .f32) (w : Arr F S12x128 .f32) : Arr F S100000x128 .f32 := val_main_v24 (F := F) a w

/-- The product of a [100000, 128] array with a [128, 128] matrix. -/
def mm128 (a : Arr F S100000x128 .f32) (w : Arr F S128x128 .f32) : Arr F S100000x128 .f32 :=
  Host.dotGeneral dot_S100000x128_S128x128_S100000x128_1_0_0_1_n_n none a w

/-- The product of a [100000, 128] array with a [128, 13] matrix. -/
def mm13 (a : Arr F S100000x128 .f32) (w : Arr F S128x13 .f32) : Arr F S100000x13 .f32 :=
  Host.dotGeneral dot_S100000x128_S128x13_S100000x13_1_0_0_1_n_n none a w

/-- Layer one: `max (mean · Wl + x · Wr + b, 0)`. -/
def dense1 (mean x : Arr F S100000x12 .f32) (wl wr : Arr F S12x128 .f32) (b : Arr F S128 .f32) : Arr F S100000x128 .f32 :=
  maximumf (addf (addf (mm12 mean wl) (mm12 x wr)) (val_main_v27 (F := F) b)) (val_main_call0_v0 (F := F))

/-- Layer two: the same with 128 input features. -/
def dense2 (mean h : Arr F S100000x128 .f32) (wl wr : Arr F S128x128 .f32) (b : Arr F S128 .f32) : Arr F S100000x128 .f32 :=
  maximumf (addf (addf (mm128 mean wl) (mm128 h wr)) (val_main_v53 (F := F) b)) (val_main_call1_v0 (F := F))

/-- Layer three before its activation: `mean · Wl + h · Wr + b`, 13 wide. -/
def preact3 (mean h : Arr F S100000x128 .f32) (wl wr : Arr F S128x13 .f32) (b : Arr F S13 .f32) : Arr F S100000x13 .f32 :=
  addf (addf (mm13 mean wl) (mm13 h wr)) (val_main_v79 (F := F) b)

/-- The logistic function as the reference spells it: `1 / (1 + exp (-y))`. -/
def sigm (y : Arr F S100000x13 .f32) : Arr F S100000x13 .f32 :=
  Host.divf (val_main_v85 (F := F)) (addf (val_main_v83 (F := F)) (Host.exp (Host.negf y)))

/-- The hierarchy maximum: `out[n, i] = max_j rf[i, j] · s[n, j]` (from `-∞`). -/
def hierMax (rf : Arr F S13x13 .f32) (s : Arr F S100000x13 .f32) : Arr F S100000x13 .f32 :=
  Host.reduce FloatOps.maximumf
    (mulf (broadcastInDim S100000x13x13 ![0, 1, 2] bcast_S1x13x13_S100000x13x13_0_1_2 (broadcastInDim S1x13x13 ![1, 2] bcast_S13x13_S1x13x13_1_2 rf))
      (broadcastInDim S100000x13x13 ![0, 1, 2] bcast_S100000x1x13_S100000x13x13_0_1_2 (broadcastInDim S100000x1x13 ![0, 2] bcast_S100000x13_S100000x1x13_0_2 s)))
    (val_main_cst_18 (F := F)) reducesTo_S100000x13x13_S100000x13_d2 h_S_

/-- Layer three: the hierarchy maximum of the logistic of `mean · Wl + h · Wr + b`. -/
def dense3 (mean h : Arr F S100000x128 .f32) (wl wr : Arr F S128x13 .f32) (b : Arr F S13 .f32) (rf : Arr F S13x13 .f32) : Arr F S100000x13 .f32 :=
  hierMax rf (sigm (preact3 mean h wl wr b))

/-! ## The reference's stages are the layers composed -/

section Stages
variable (x0 : Arr Ideal S100000x12 .f32) (x1 x2 : Arr Ideal S12x128 .f32) (x3 : Arr Ideal S128 .f32) (x4 x5 : Arr Ideal S128x128 .f32) (x6 : Arr Ideal S128 .f32)
  (x7 x8 : Arr Ideal S128x13 .f32) (x9 : Arr Ideal S13 .f32) (x10 : Arr Ideal S2x1600000 .i32) (x11 : Arr Ideal S13x13 .i32)

/-- The first layer's output. -/
theorem stage_h1 : val_main_v29 (F := Ideal) x0 x1 x2 x3 x10 = dense1 (F := Ideal) (mean12 (F := Ideal) x0 x10) x0 x1 x2 x3 := rfl

/-- The second layer's neighbour mean is that of the first layer's output. -/
theorem stage_mean1 : val_main_v48 (F := Ideal) x0 x1 x2 x3 x10 = mean128 (F := Ideal) (val_main_v29 (F := Ideal) x0 x1 x2 x3 x10) x10 := rfl

/-- The second layer's output. -/
theorem stage_h2 : val_main_v55 (F := Ideal) x0 x1 x2 x3 x4 x5 x6 x10
    = dense2 (F := Ideal) (val_main_v48 (F := Ideal) x0 x1 x2 x3 x10) (val_main_v29 (F := Ideal) x0 x1 x2 x3 x10) x4 x5 x6 := rfl

/-- The third layer's neighbour mean is that of the second layer's output. -/
theorem stage_mean2 : val_main_v74 (F := Ideal) x0 x1 x2 x3 x4 x5 x6 x10 = mean128 (F := Ideal) (val_main_v55 (F := Ideal) x0 x1 x2 x3 x4 x5 x6 x10) x10 := rfl

/-- The result. -/
theorem stage_out : val_main_v93 (F := Ideal) x0 x1 x2 x3 x4 x5 x6 x7 x8 x9 x10 x11
    = dense3 (F := Ideal) (val_main_v74 (F := Ideal) x0 x1 x2 x3 x4 x5 x6 x10) (val_main_v55 (F := Ideal) x0 x1 x2 x3 x4 x5 x6 x10) x7 x8 x9 (val_main_v87 (F := Ideal) x11) := rfl

end Stages

end Cert.Layers

end
-- ==== Proof.Region0.lean ====
/-
  The first dense layer's array after its region, at the ideal instance.

  The region runs over 20 grid points; point t loads rows 5000 t … 5000 t + 4999 of the neighbour mean and of the
  features (12 wide) with the two whole weight matrices and the bias, and writes back the same rows of the output:
  `max (mean · Wl + x · Wr + b, 0)`, the two products accumulated from zero (a change of float format is the
  identity here). The 20 row blocks tile the 100000 rows, so the whole array ends at the layer function of the
  arrays the region was entered with.
-/
import proofs.«122154_j34763465294563_1_alg».proof.Proof.Gen.KernelIdeal.Frame
import proofs.«122154_j34763465294563_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

-- the arrays as the region finds them: any contents
variable (V : (c : Dev nD) → (b : Ref sig .tc) → Buf (Elt Ideal) ((c : Thread nD τ).loc b))

open Idealize.ShloMosaic.ValueIdx (ix1 ix2 eq_ix1 eq_ix2)

/-! ## The product of a row block with a weight matrix, entry by entry -/

/-- The left operand is read at the result's row … -/
theorem lhs_axis0 (i : S5000x128.Idx) (q : dot_S5000x12_S12x128_S5000x128_1_0_0_1_n_n.contr.Idx) :
    (dot_S5000x12_S12x128_S5000x128_1_0_0_1_n_n.lhsIdx i q 0).val = (i 0).val := by
  unfold DotDims.lhsIdx
  rw [dif_neg (show ¬(0 : Fin S5000x12.rank) ∈ dot_S5000x12_S12x128_S5000x128_1_0_0_1_n_n.lhsBatch by decide), dif_pos (show (0 : Fin S5000x12.rank) ∈ dot_S5000x12_S12x128_S5000x128_1_0_0_1_n_n.lhsNonContracting by decide)]
  rfl
/-- … and at the contracted feature on its columns. -/
theorem lhs_axis1 (i : S5000x128.Idx) (q : dot_S5000x12_S12x128_S5000x128_1_0_0_1_n_n.contr.Idx) :
    (dot_S5000x12_S12x128_S5000x128_1_0_0_1_n_n.lhsIdx i q 1).val = (q ⟨0, by decide⟩).val :=
  dot_S5000x12_S12x128_S5000x128_1_0_0_1_n_n.lhsIdx_val_of_single rfl i q
/-- The right operand is read at the contracted feature on its rows … -/
theorem rhs_axis0 (i : S5000x128.Idx) (q : dot_S5000x12_S12x128_S5000x128_1_0_0_1_n_n.contr.Idx) :
    (dot_S5000x12_S12x128_S5000x128_1_0_0_1_n_n.rhsIdx i q 0).val = (q ⟨0, by decide⟩).val :=
  dot_S5000x12_S12x128_S5000x128_1_0_0_1_n_n.rhsIdx_val_of_single rfl i q
/-- … and at the result's column. -/
theorem rhs_axis1 (i : S5000x128.Idx) (q : dot_S5000x12_S12x128_S5000x128_1_0_0_1_n_n.contr.Idx) :
    (dot_S5000x12_S12x128_S5000x128_1_0_0_1_n_n.rhsIdx i q 1).val = (i 1).val := by
  unfold DotDims.rhsIdx
  rw [dif_neg (show ¬(1 : Fin S12x128.rank) ∈ dot_S5000x12_S12x128_S5000x128_1_0_0_1_n_n.rhsBatch by decide), dif_pos (show (1 : Fin S12x128.rank) ∈ dot_S5000x12_S12x128_S5000x128_1_0_0_1_n_n.rhsNonContracting by decide)]
  rfl

/-- A block's product accumulated from zero: entry (p, q) is the sum over the 12 contracted features. -/
theorem mm_apply (a : FVec Ideal S5000x12 .bf16) (w : FVec Ideal S12x128 .bf16) (p : Fin 5000) (q : Fin 128) :
    matmul dot_S5000x12_S12x128_S5000x128_1_0_0_1_n_n none a w (constant (F := Ideal) S5000x128 .f32 0x00000000#32) (ix2 p q)
      = ∑ k : Fin 12, a (ix2 p k) * w (ix2 k q) := by
  refine (Ideal.matmul_constant_zero_apply dot_S5000x12_S12x128_S5000x128_1_0_0_1_n_n none a w (ix2 p q)).trans ?_
  rw [← Equiv.sum_comp (ValueIdx.contrEquiv1 dot_S5000x12_S12x128_S5000x128_1_0_0_1_n_n 12 rfl rfl).symm]
  refine Finset.sum_congr rfl fun k _ => ?_
  have hk := ValueIdx.contrEquiv1_symm_val dot_S5000x12_S12x128_S5000x128_1_0_0_1_n_n 12 rfl rfl k
  have el : dot_S5000x12_S12x128_S5000x128_1_0_0_1_n_n.lhsIdx (ix2 p q) ((ValueIdx.contrEquiv1 dot_S5000x12_S12x128_S5000x128_1_0_0_1_n_n 12 rfl rfl).symm k) = ix2 p k := funext fun a => Fin.ext (by
    match a with
    | ⟨0, _⟩ => exact lhs_axis0 _ _
    | ⟨1, _⟩ => exact (lhs_axis1 _ _).trans hk)
  have er : dot_S5000x12_S12x128_S5000x128_1_0_0_1_n_n.rhsIdx (ix2 p q) ((ValueIdx.contrEquiv1 dot_S5000x12_S12x128_S5000x128_1_0_0_1_n_n 12 rfl rfl).symm k) = ix2 k q := funext fun a => Fin.ext (by
    match a with
    | ⟨0, _⟩ => exact (rhs_axis0 _ _).trans hk
    | ⟨1, _⟩ => exact rhs_axis1 _ _)
  rw [el, er]

/-! ## The body's result, entry by entry -/

/-- Entry (p, q) of what the body stores: the two products of the loaded row blocks with the weight matrices, the
    bias entry q added, the maximum with zero taken. -/
theorem pay_apply (x0 x1 : Vec Ideal S5000x12 .f32) (x2 x3 : Vec Ideal S12x128 .f32) (x4 : Vec Ideal S128 .f32)
    (p : Fin 5000) (q : Fin 128) :
    k0_pay1 (F := Ideal) x0 x1 x2 x3 x4 (ix2 p q)
      = max ((∑ k : Fin 12, x0 (ix2 p k) * x2 (ix2 k q)) + (∑ k : Fin 12, x1 (ix2 p k) * x3 (ix2 k q)) + x4 (ix1 q))
          (Ideal.ofBits .f32 0x00000000#32) := by
  unfold k0_pay1
  refine congrArg₂ max (congrArg₂ (· + ·) (congrArg₂ (· + ·) ?_ ?_) ?_) rfl
  · rw [shapeCast_self]
    exact mm_apply _ _ p q
  · exact mm_apply _ _ p q
  · refine (broadcastTo_apply (shapeCast S1x128 x4 shapeCasts_S128_S1x128) broadcasts_S1x128_S5000x128 (ix2 p q) (ix2 (0 : Fin 1) q) (fun a => ?_)).trans ?_
    · match a with
      | ⟨0, _⟩ => show (0 : Nat) = if (1 : Nat) = 1 then 0 else p.val; rw [if_pos rfl]
      | ⟨1, _⟩ => show q.val = if (128 : Nat) = 1 then 0 else q.val; rw [if_neg (by decide)]
    · refine (shapeCast_addUnit_apply ![128] x4 shapeCasts_S128_S1x128 (ix2 (0 : Fin 1) q)).trans ?_
      exact congrArg x4 (funext fun a => match a with | ⟨0, _⟩ => rfl)

/-! ## The layer function, entry by entry -/

/-- Entry (r, q) of layer one: the sums over the 12 input features of row r of the mean and of the features against
    column q of the two weight matrices, the bias entry q added, the maximum with zero taken. -/
theorem dense1_apply (mean x : Cert.Layers.Arr Ideal Cert.ReferenceIdeal.S100000x12 .f32)
    (wl wr : Cert.Layers.Arr Ideal Cert.ReferenceIdeal.S12x128 .f32) (b : Cert.Layers.Arr Ideal Cert.ReferenceIdeal.S128 .f32)
    (r : Fin 100000) (q : Fin 128) :
    Cert.Layers.dense1 (F := Ideal) mean x wl wr b (ix2 r q)
      = max ((∑ k : Fin 12, mean (ix2 r k) * wl (ix2 k q)) + (∑ k : Fin 12, x (ix2 r k) * wr (ix2 k q)) + b (ix1 q))
          (Ideal.ofBits .f32 0x00000000#32) := by
  unfold Cert.Layers.dense1 Cert.Layers.mm12
  have el : ∀ k : Fin 12, Cert.ReferenceIdeal.Read.lidx_main_v24 (ix2 r q) k = ix2 r k := fun k =>
    funext fun a => Fin.ext (by match a with | ⟨0, _⟩ => rfl | ⟨1, _⟩ => rfl)
  have er : ∀ k : Fin 12, Cert.ReferenceIdeal.Read.ridx_main_v24 (ix2 r q) k = ix2 k q := fun k =>
    funext fun a => Fin.ext (by match a with | ⟨0, _⟩ => rfl | ⟨1, _⟩ => rfl)
  have eb : Cert.ReferenceIdeal.Read.idx_main_v26 (Cert.ReferenceIdeal.Read.idx_main_v27 (ix2 r q)) = ix1 q :=
    funext fun a => Fin.ext (by match a with | ⟨0, _⟩ => rfl)
  rw [ValueIdx.maximumf_apply, ValueIdx.addf_apply, ValueIdx.addf_apply, Cert.ReferenceIdeal.Read.val_main_v24_apply,
    Cert.ReferenceIdeal.Read.val_main_v24_apply, Cert.ReferenceIdeal.Read.val_main_v27_apply, Cert.ReferenceIdeal.Read.val_main_v26_apply,
    Cert.ReferenceIdeal.Read.val_main_call0_v0_apply, Cert.ReferenceIdeal.Read.val_main_call0_cst_apply, eb]
  simp only [el, er]
  rfl

/-! ## The windows over the grid -/

/-- Zero offsets on two axes, as the constant function. -/
theorem hz2 : (![0, 0] : Fin 2 → Nat) = fun _ => 0 := funext fun a => by fin_cases a <;> rfl
/-- The zero offset on one axis, as the constant function. -/
theorem hz1 : (![0] : Fin 1 → Nat) = fun _ => 0 := funext fun a => by fin_cases a; rfl

/-- The grid has 20 points. -/
theorem pt_lt (t : Fin cfg0.N) : t.val < 20 := lt_of_lt_of_eq t.isLt N_0

/-- The block indices over the grid: the three row-block windows are at block t of the rows and block 0 of the
    columns; the weight and bias windows are always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the mean's block at point t is row 5000 t + p of the array. -/
theorem blk_mean (c : Dev nD) (t : Fin cfg0.N) (p : Fin 5000) (k : Fin 12) (r : Fin 100000) (hr : r.val = t.val * 5000 + p.val) :
    (iblk0 V c 0 t : Vec Ideal S5000x12 .f32) (ix2 p k) = (V c main_v22 : S100000x12.Idx → Elt Ideal .f32) (ix2 r k) := by
  obtain ⟨e0, e1, -⟩ := idx_facts t
  unfold iblk0
  rw [View.read_apply]
  show V c main_v22 _ = V c main_v22 _
  refine congrArg (V c main_v22) (funext fun a => Fin.ext ?_)
  match a with
  | ⟨0, _⟩ => show win0_0.index t (0 : Fin 2) * 5000 + 1 * p.val = r.val; rw [e0, hr]; omega
  | ⟨1, _⟩ => show win0_0.index t (1 : Fin 2) * 12 + 1 * k.val = k.val; rw [e1]; omega

/-- Row p of the features' block at point t is row 5000 t + p of the array. -/
theorem blk_feat (c : Dev nD) (t : Fin cfg0.N) (p : Fin 5000) (k : Fin 12) (r : Fin 100000) (hr : r.val = t.val * 5000 + p.val) :
    (iblk0 V c 1 t : Vec Ideal S5000x12 .f32) (ix2 p k) = (V c main_arg0 : S100000x12.Idx → Elt Ideal .f32) (ix2 r k) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = r.val; rw [e0, hr]; omega
  | ⟨1, _⟩ => show win0_1.index t (1 : Fin 2) * 12 + 1 * k.val = k.val; rw [e1]; omega

/-- The first weight matrix's block is the whole matrix at every point. -/
theorem blk_wl (c : Dev nD) (t : Fin cfg0.N) (k : Fin 12) (q : Fin 128) :
    (iblk0 V c 2 t : Vec Ideal S12x128 .f32) (ix2 k q) = (V c main_arg1 : S12x128.Idx → Elt Ideal .f32) (ix2 k q) := by
  obtain ⟨-, -, -, -, e0, e1, -⟩ := idx_facts t
  unfold iblk0
  rw [View.read_apply]
  show V c main_arg1 _ = V c main_arg1 _
  refine congrArg (V c main_arg1) (funext fun a => Fin.ext ?_)
  match a with
  | ⟨0, _⟩ => show win0_2.index t (0 : Fin 2) * 12 + 1 * k.val = k.val; rw [e0]; omega
  | ⟨1, _⟩ => show win0_2.index t (1 : Fin 2) * 128 + 1 * q.val = q.val; rw [e1]; omega

/-- The second weight matrix's block is the whole matrix at every point. -/
theorem blk_wr (c : Dev nD) (t : Fin cfg0.N) (k : Fin 12) (q : Fin 128) :
    (iblk0 V c 3 t : Vec Ideal S12x128 .f32) (ix2 k q) = (V c main_arg2 : S12x128.Idx → Elt Ideal .f32) (ix2 k q) := by
  obtain ⟨-, -, -, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_3.index t (0 : Fin 2) * 12 + 1 * k.val = k.val; rw [e0]; omega
  | ⟨1, _⟩ => show win0_3.index t (1 : Fin 2) * 128 + 1 * q.val = q.val; rw [e1]; omega

/-- The bias's block is the whole vector at every point. -/
theorem blk_b (c : Dev nD) (t : Fin cfg0.N) (q : Fin 128) :
    (iblk0 V c 4 t : Vec Ideal S128 .f32) (ix1 q) = (V c main_arg3 : S128.Idx → Elt Ideal .f32) (ix1 q) := by
  obtain ⟨-, -, -, -, -, -, -, -, e0, -⟩ := idx_facts t
  unfold iblk0
  rw [View.read_apply]
  show V c main_arg3 _ = V c main_arg3 _
  refine congrArg (V c main_arg3) (funext fun a => Fin.ext ?_)
  match a with
  | ⟨0, _⟩ => show win0_4.index t (0 : Fin 1) * 128 + 1 * q.val = q.val; rw [e0]; omega

/-! ## One point's write-back, the cover, the array -/

/-- A block's entry is the layer's entry at the row it was loaded from: the loaded blocks agree with the arrays on
    row r (the blocks' row p) and on the whole weights and bias. -/
theorem block_eq (x0 x1 : Vec Ideal S5000x12 .f32) (x2 x3 : Vec Ideal S12x128 .f32) (x4 : Vec Ideal S128 .f32)
    (mean x : Cert.Layers.Arr Ideal Cert.ReferenceIdeal.S100000x12 .f32)
    (wl wr : Cert.Layers.Arr Ideal Cert.ReferenceIdeal.S12x128 .f32) (b : Cert.Layers.Arr Ideal Cert.ReferenceIdeal.S128 .f32)
    (p : Fin 5000) (q : Fin 128) (r : Fin 100000)
    (h0 : ∀ k : Fin 12, x0 (ix2 p k) = mean (ix2 r k)) (h1 : ∀ k : Fin 12, x1 (ix2 p k) = x (ix2 r k))
    (h2 : ∀ k : Fin 12, x2 (ix2 k q) = wl (ix2 k q)) (h3 : ∀ k : Fin 12, x3 (ix2 k q) = wr (ix2 k q))
    (h4 : x4 (ix1 q) = b (ix1 q)) :
    k0_pay1 (F := Ideal) x0 x1 x2 x3 x4 (ix2 p q) = Cert.Layers.dense1 (F := Ideal) mean x wl wr b (ix2 r q) := by
  rw [pay_apply, dense1_apply, h4]
  simp only [h0, h1, h2, h3]

/-- What point t writes back is block t of the layer function of the arrays the region was entered with. -/
theorem flushed_eq (c : Dev nD) (t : Fin cfg0.N) :
    (dat0 (F := Ideal) V c).flushed 5 t = ((cfg0.win 5).blk t).view.read (Elt Ideal)
      (Cert.Layers.dense1 (F := Ideal) (V c main_v22) (V c main_arg0) (V c main_arg1) (V c main_arg2) (V c main_arg3)) := by
  show (cfg0.win 5).cut (grid0.coords t) ((dat0 (F := Ideal) V c).after 5 t) = _
  rw [after0_5]
  unfold out0_5
  rw [View.canon_unit_zero hz2]
  simp only [View.ld_unit_zero (S := S5000x12) hz2, View.ld_unit_zero (S := S12x128) hz2, View.ld_unit_zero (S := S128) hz1]
  funext j
  show k0_pay1 (F := Ideal) (iblk0 V c 0 t) (iblk0 V c 1 t) (iblk0 V c 2 t) (iblk0 V c 3 t) (iblk0 V c 4 t) j
    = Cert.Layers.dense1 (F := Ideal) (V c main_v22) (V c main_arg0) (V c main_arg1) (V c main_arg2) (V c main_arg3) (((cfg0.win 5).blk t).view.emb j)
  obtain ⟨p, q, rfl⟩ : ∃ (p : Fin 5000) (q : Fin 128), j = ix2 p q := ⟨j 0, j 1, eq_ix2 j⟩
  have hp := p.isLt
  have ht := pt_lt t
  obtain ⟨-, -, -, -, -, -, -, -, -, e0, e1⟩ := idx_facts t
  refine (block_eq (iblk0 V c 0 t) (iblk0 V c 1 t) (iblk0 V c 2 t) (iblk0 V c 3 t) (iblk0 V c 4 t)
    (V c main_v22) (V c main_arg0) (V c main_arg1) (V c main_arg2) (V c main_arg3) p q ⟨t.val * 5000 + p.val, by omega⟩
    (fun k => blk_mean V c t p k _ rfl) (fun k => blk_feat V c t p k _ rfl) (fun k => blk_wl V c t k q) (fun k => blk_wr V c t k q)
    (blk_b V c t q)).trans ?_
  refine congrArg (Cert.Layers.dense1 (F := Ideal) (V c main_v22) (V c main_arg0) (V c main_arg1) (V c main_arg2) (V c main_arg3))
    (funext fun a => Fin.ext ?_)
  match a with
  | ⟨0, _⟩ => show t.val * 5000 + p.val = win0_5.index t (0 : Fin 2) * 5000 + 1 * p.val; rw [e0]; omega
  | ⟨1, _⟩ => show q.val = win0_5.index t (1 : Fin 2) * 128 + 1 * q.val; rw [e1]; omega

/-- An index of the output array is in point t's block when each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The 20 row blocks tile the 100000 rows: row r is in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  obtain ⟨-, -, -, -, -, -, -, -, -, e0, e1⟩ := idx_facts ⟨(i 0).val / 5000, by rw [hN]; omega⟩
  rw [mem_blk]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- After region 0 its output array is layer one of the entry contents of its five input arrays. -/
theorem arr_eq (c : Dev nD) :
    (dat0 (F := Ideal) V c).arrAt 5 cfg0.N
      = Cert.Layers.dense1 (F := Ideal) (V c main_v22) (V c main_arg0) (V c main_arg1) (V c main_arg2) (V c main_arg3) :=
  (dat0 (F := Ideal) V c).arrAt_eq_of_cover 5
    (Cert.Layers.dense1 (F := Ideal) (V c main_v22) (V c main_arg0) (V c main_arg1) (V c main_arg2) (V c main_arg3))
    (fun t _ => flushed_eq V c t) cover

end Cert.KernelIdeal.Region0

end
-- ==== Proof.Region1.lean ====
/-
  The second dense layer's array after its region, at the ideal instance.

  As the first layer with 128 input features: point t loads rows 5000 t … 5000 t + 4999 of the neighbour mean and of
  the first layer's output with the two whole [128, 128] weight matrices and the bias, and writes back the same rows of
  `max (mean · Wl + h · Wr + b, 0)`. The 20 row blocks tile the array.
-/
import proofs.«122154_j34763465294563_1_alg».proof.Proof.Gen.KernelIdeal.Frame
import proofs.«122154_j34763465294563_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

-- the arrays as the region finds them: any contents
variable (V : (c : Dev nD) → (b : Ref sig .tc) → Buf (Elt Ideal) ((c : Thread nD τ).loc b))

open Idealize.ShloMosaic.ValueIdx (ix1 ix2 eq_ix1 eq_ix2)

/-! ## The product of a row block with a weight matrix, entry by entry -/

/-- The left operand is read at the result's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted feature on its columns. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the contracted feature on its rows … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the result's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product accumulated from zero: entry (p, q) is the sum over the 128 contracted features. -/
theorem mm_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's result, entry by entry -/

/-- Entry (p, q) of what the body stores: the two products of the loaded row blocks with the weight matrices, the
    bias entry q added, the maximum with zero taken. -/
theorem pay_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q)) + x4 (ix1 q))
          (Ideal.ofBits .f32 0x00000000#32) := by
  unfold k1_pay1
  refine congrArg₂ max (congrArg₂ (· + ·) (congrArg₂ (· + ·) ?_ ?_) ?_) rfl
  · rw [shapeCast_self]
    exact mm_apply _ _ p q
  · rw [shapeCast_self]
    exact mm_apply _ _ p q
  · refine (broadcastTo_apply (shapeCast S1x128 x4 shapeCasts_S128_S1x128) broadcasts_S1x128_S5000x128 (ix2 p q) (ix2 (0 : Fin 1) q) (fun a => ?_)).trans ?_
    · match a with
      | ⟨0, _⟩ => show (0 : Nat) = if (1 : Nat) = 1 then 0 else p.val; rw [if_pos rfl]
      | ⟨1, _⟩ => show q.val = if (128 : Nat) = 1 then 0 else q.val; rw [if_neg (by decide)]
    · refine (shapeCast_addUnit_apply ![128] x4 shapeCasts_S128_S1x128 (ix2 (0 : Fin 1) q)).trans ?_
      exact congrArg x4 (funext fun a => match a with | ⟨0, _⟩ => rfl)

/-! ## The layer function, entry by entry -/

/-- Entry (r, q) of the product of a [100000, 128] array with a [128, 128] matrix: the sum over the contracted
    feature of row r against column q. -/
theorem mm128_apply (a : Cert.Layers.Arr Ideal Cert.ReferenceIdeal.S100000x128 .f32)
    (w : Cert.Layers.Arr Ideal Cert.ReferenceIdeal.S128x128 .f32) (r : Fin 100000) (q : Fin 128) :
    Cert.Layers.mm128 (F := Ideal) a w (ix2 r q) = ∑ k : Fin 128, a (ix2 r k) * w (ix2 k q) := by
  unfold Cert.Layers.mm128
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((ValueIdx.contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S100000x128_S128x128_S100000x128_1_0_0_1_n_n.rhsIdx (ix2 r q) ((ValueIdx.contrEquiv1 Cert.ReferenceIdeal.dot_S100000x128_S128x128_S100000x128_1_0_0_1_n_n 128 rfl rfl).symm k) = ix2 k q := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-- Entry (r, q) of layer two: the sums over the 128 input features of row r of the mean and of the first layer's
    output against column q of the two weight matrices, the bias entry q added, the maximum with zero taken. -/
theorem dense2_apply (mean h : Cert.Layers.Arr Ideal Cert.ReferenceIdeal.S100000x128 .f32)
    (wl wr : Cert.Layers.Arr Ideal Cert.ReferenceIdeal.S128x128 .f32) (b : Cert.Layers.Arr Ideal Cert.ReferenceIdeal.S128 .f32)
    (r : Fin 100000) (q : Fin 128) :
    Cert.Layers.dense2 (F := Ideal) mean h wl wr b (ix2 r q)
      = max ((∑ k : Fin 128, mean (ix2 r k) * wl (ix2 k q)) + (∑ k : Fin 128, h (ix2 r k) * wr (ix2 k q)) + b (ix1 q))
          (Ideal.ofBits .f32 0x00000000#32) := by
  unfold Cert.Layers.dense2
  have eb : Cert.ReferenceIdeal.Read.idx_main_v52 (Cert.ReferenceIdeal.Read.idx_main_v53 (ix2 r q)) = ix1 q :=
    funext fun a => Fin.ext (by match a with | ⟨0, _⟩ => rfl)
  rw [ValueIdx.maximumf_apply, ValueIdx.addf_apply, ValueIdx.addf_apply, mm128_apply, mm128_apply,
    Cert.ReferenceIdeal.Read.val_main_v53_apply, Cert.ReferenceIdeal.Read.val_main_v52_apply,
    Cert.ReferenceIdeal.Read.val_main_call1_v0_apply, Cert.ReferenceIdeal.Read.val_main_call1_cst_apply, eb]
  rfl

/-! ## The windows over the grid -/

/-- Zero offsets on two axes, as the constant function. -/
theorem hz2 : (![0, 0] : Fin 2 → Nat) = fun _ => 0 := funext fun a => by fin_cases a <;> rfl
/-- The zero offset on one axis, as the constant function. -/
theorem hz1 : (![0] : Fin 1 → Nat) = fun _ => 0 := funext fun a => by fin_cases a; rfl

/-- The grid has 20 points. -/
theorem pt_lt (t : Fin cfg1.N) : t.val < 20 := lt_of_lt_of_eq t.isLt N_1

/-- The block indices over the grid: the three row-block windows are at block t of the rows and block 0 of the
    columns; the weight and bias windows are always at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the mean's block at point t is row 5000 t + p of the array. -/
theorem blk_mean (c : Dev nD) (t : Fin cfg1.N) (p : Fin 5000) (k : Fin 128) (r : Fin 100000) (hr : r.val = t.val * 5000 + p.val) :
    (iblk1 V c 0 t : Vec Ideal S5000x128 .f32) (ix2 p k) = (V c main_v42 : S100000x128.Idx → Elt Ideal .f32) (ix2 r k) := by
  obtain ⟨e0, e1, -⟩ := idx_facts t
  unfold iblk1
  rw [View.read_apply]
  show V c main_v42 _ = V c main_v42 _
  refine congrArg (V c main_v42) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the block of the first layer's output at point t is row 5000 t + p of the array. -/
theorem blk_feat (c : Dev nD) (t : Fin cfg1.N) (p : Fin 5000) (k : Fin 128) (r : Fin 100000) (hr : r.val = t.val * 5000 + p.val) :
    (iblk1 V c 1 t : Vec Ideal S5000x128 .f32) (ix2 p k) = (V c main_v23 : S100000x128.Idx → Elt Ideal .f32) (ix2 r k) := by
  obtain ⟨-, -, e0, e1, -⟩ := idx_facts t
  unfold iblk1
  rw [View.read_apply]
  show V c main_v23 _ = V c main_v23 _
  refine congrArg (V c main_v23) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight matrix's block is the whole matrix at every point. -/
theorem blk_wl (c : Dev nD) (t : Fin cfg1.N) (k : Fin 128) (q : Fin 128) :
    (iblk1 V c 2 t : Vec Ideal S128x128 .f32) (ix2 k q) = (V c main_arg4 : S128x128.Idx → Elt Ideal .f32) (ix2 k q) := by
  obtain ⟨-, -, -, -, e0, e1, -⟩ := idx_facts t
  unfold iblk1
  rw [View.read_apply]
  show V c main_arg4 _ = V c main_arg4 _
  refine congrArg (V c main_arg4) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight matrix's block is the whole matrix at every point. -/
theorem blk_wr (c : Dev nD) (t : Fin cfg1.N) (k : Fin 128) (q : Fin 128) :
    (iblk1 V c 3 t : Vec Ideal S128x128 .f32) (ix2 k q) = (V c main_arg5 : S128x128.Idx → Elt Ideal .f32) (ix2 k q) := by
  obtain ⟨-, -, -, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias's block is the whole vector at every point. -/
theorem blk_b (c : Dev nD) (t : Fin cfg1.N) (q : Fin 128) :
    (iblk1 V c 4 t : Vec Ideal S128 .f32) (ix1 q) = (V c main_arg6 : S128.Idx → Elt Ideal .f32) (ix1 q) := by
  obtain ⟨-, -, -, -, -, -, -, -, e0, -⟩ := idx_facts t
  unfold iblk1
  rw [View.read_apply]
  show V c main_arg6 _ = V c main_arg6 _
  refine congrArg (V c main_arg6) (funext fun a => Fin.ext ?_)
  match a with
  | ⟨0, _⟩ => show win1_4.index t (0 : Fin 1) * 128 + 1 * q.val = q.val; rw [e0]; omega

/-! ## One point's write-back, the cover, the array -/

/-- A block's entry is the layer's entry at the row it was loaded from: the loaded blocks agree with the arrays on
    row r (the blocks' row p) and on the whole weights and bias. -/
theorem block_eq (x0 x1 : Vec Ideal S5000x128 .f32) (x2 x3 : Vec Ideal S128x128 .f32) (x4 : Vec Ideal S128 .f32)
    (mean h : Cert.Layers.Arr Ideal Cert.ReferenceIdeal.S100000x128 .f32)
    (wl wr : Cert.Layers.Arr Ideal Cert.ReferenceIdeal.S128x128 .f32) (b : Cert.Layers.Arr Ideal Cert.ReferenceIdeal.S128 .f32)
    (p : Fin 5000) (q : Fin 128) (r : Fin 100000)
    (h0 : ∀ k : Fin 128, x0 (ix2 p k) = mean (ix2 r k)) (h1 : ∀ k : Fin 128, x1 (ix2 p k) = h (ix2 r k))
    (h2 : ∀ k : Fin 128, x2 (ix2 k q) = wl (ix2 k q)) (h3 : ∀ k : Fin 128, x3 (ix2 k q) = wr (ix2 k q))
    (h4 : x4 (ix1 q) = b (ix1 q)) :
    k1_pay1 (F := Ideal) x0 x1 x2 x3 x4 (ix2 p q) = Cert.Layers.dense2 (F := Ideal) mean h wl wr b (ix2 r q) := by
  rw [pay_apply, dense2_apply, h4]
  simp only [h0, h1, h2, h3]

/-- What point t writes back is block t of the layer function of the arrays the region was entered with. -/
theorem flushed_eq (c : Dev nD) (t : Fin cfg1.N) :
    (dat1 (F := Ideal) V c).flushed 5 t = ((cfg1.win 5).blk t).view.read (Elt Ideal)
      (Cert.Layers.dense2 (F := Ideal) (V c main_v42) (V c main_v23) (V c main_arg4) (V c main_arg5) (V c main_arg6)) := by
  show (cfg1.win 5).cut (grid1.coords t) ((dat1 (F := Ideal) V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  show k1_pay1 (F := Ideal) (iblk1 V c 0 t) (iblk1 V c 1 t) (iblk1 V c 2 t) (iblk1 V c 3 t) (iblk1 V c 4 t) j
    = Cert.Layers.dense2 (F := Ideal) (V c main_v42) (V c main_v23) (V c main_arg4) (V c main_arg5) (V c main_arg6) (((cfg1.win 5).blk t).view.emb j)
  obtain ⟨p, q, rfl⟩ : ∃ (p : Fin 5000) (q : Fin 128), j = ix2 p q := ⟨j 0, j 1, eq_ix2 j⟩
  have hp := p.isLt
  have ht := pt_lt t
  obtain ⟨-, -, -, -, -, -, -, -, -, e0, e1⟩ := idx_facts t
  refine (block_eq (iblk1 V c 0 t) (iblk1 V c 1 t) (iblk1 V c 2 t) (iblk1 V c 3 t) (iblk1 V c 4 t)
    (V c main_v42) (V c main_v23) (V c main_arg4) (V c main_arg5) (V c main_arg6) p q ⟨t.val * 5000 + p.val, by omega⟩
    (fun k => blk_mean V c t p k _ rfl) (fun k => blk_feat V c t p k _ rfl) (fun k => blk_wl V c t k q) (fun k => blk_wr V c t k q)
    (blk_b V c t q)).trans ?_
  refine congrArg (Cert.Layers.dense2 (F := Ideal) (V c main_v42) (V c main_v23) (V c main_arg4) (V c main_arg5) (V c main_arg6))
    (funext fun a => Fin.ext ?_)
  match a with
  | ⟨0, _⟩ => show t.val * 5000 + p.val = win1_5.index t (0 : Fin 2) * 5000 + 1 * p.val; rw [e0]; omega
  | ⟨1, _⟩ => show q.val = win1_5.index t (1 : Fin 2) * 128 + 1 * q.val; rw [e1]; omega

/-- An index of the output array is in point t's block when each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- The 20 row blocks tile the 100000 rows: row r is in the block of point r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  obtain ⟨-, -, -, -, -, -, -, -, -, e0, e1⟩ := idx_facts ⟨(i 0).val / 5000, by rw [hN]; omega⟩
  rw [mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- After region 1 its output array is layer two of the entry contents of its five input arrays. -/
theorem arr_eq (c : Dev nD) :
    (dat1 (F := Ideal) V c).arrAt 5 cfg1.N
      = Cert.Layers.dense2 (F := Ideal) (V c main_v42) (V c main_v23) (V c main_arg4) (V c main_arg5) (V c main_arg6) :=
  (dat1 (F := Ideal) V c).arrAt_eq_of_cover 5
    (Cert.Layers.dense2 (F := Ideal) (V c main_v42) (V c main_v23) (V c main_arg4) (V c main_arg5) (V c main_arg6))
    (fun t _ => flushed_eq V c t) cover

end Cert.KernelIdeal.Region1

end
-- ==== Proof.Region2.lean ====
/-
  The last dense layer's array after its region, at the ideal instance.

  Point t loads rows 5000 t … 5000 t + 4999 of the neighbour mean and of the second layer's output with the two whole
  [128, 13] weight matrices, the bias and the [13, 13] hierarchy matrix; it forms y = logistic (mean · Wl + h · Wr + b)
  and, for each class i, the row maximum over j of y[n, j] · R[i, j] (from -∞), and writes the 13 columns side by side.
  The reference multiplies R[i, j] · y[n, j] and takes the maximum over the last axis: the same by commutativity.
  The 20 row blocks tile the array.
-/
import proofs.«122154_j34763465294563_1_alg».proof.Proof.Gen.KernelIdeal.Frame
import proofs.«122154_j34763465294563_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Idealize.ShloMosaic.ValueIdx

-- the arrays as the region finds them: any contents
variable (V : (c : Dev nD) → (b : Ref sig .tc) → Buf (Elt Ideal) ((c : Thread nD τ).loc b))

/-! ## A matrix product of the kernel read at an index -/

/-- The operand indices of the block product at output index i and contraction index q, axis by axis: the left
    operand is read at (i 0, q), the right at (q, i 1). -/
theorem mmL0 (i : S5000x13.Idx) (q : dot_S5000x128_S128x13_S5000x13_1_0_0_1_n_n.contr.Idx) :
    (dot_S5000x128_S128x13_S5000x13_1_0_0_1_n_n.lhsIdx i q 0).val = (i 0).val := by
  unfold DotDims.lhsIdx
  rw [dif_neg (show ¬(0 : Fin S5000x128.rank) ∈ dot_S5000x128_S128x13_S5000x13_1_0_0_1_n_n.lhsBatch by decide), dif_pos (show (0 : Fin S5000x128.rank) ∈ dot_S5000x128_S128x13_S5000x13_1_0_0_1_n_n.lhsNonContracting by decide)]
  rfl
theorem mmL1 (i : S5000x13.Idx) (q : dot_S5000x128_S128x13_S5000x13_1_0_0_1_n_n.contr.Idx) :
    (dot_S5000x128_S128x13_S5000x13_1_0_0_1_n_n.lhsIdx i q 1).val = (q ⟨0, by decide⟩).val :=
  dot_S5000x128_S128x13_S5000x13_1_0_0_1_n_n.lhsIdx_val_of_single rfl i q
theorem mmR0 (i : S5000x13.Idx) (q : dot_S5000x128_S128x13_S5000x13_1_0_0_1_n_n.contr.Idx) :
    (dot_S5000x128_S128x13_S5000x13_1_0_0_1_n_n.rhsIdx i q 0).val = (q ⟨0, by decide⟩).val :=
  dot_S5000x128_S128x13_S5000x13_1_0_0_1_n_n.rhsIdx_val_of_single rfl i q
theorem mmR1 (i : S5000x13.Idx) (q : dot_S5000x128_S128x13_S5000x13_1_0_0_1_n_n.contr.Idx) :
    (dot_S5000x128_S128x13_S5000x13_1_0_0_1_n_n.rhsIdx i q 1).val = (i 1).val := by
  unfold DotDims.rhsIdx
  rw [dif_neg (show ¬(1 : Fin S128x13.rank) ∈ dot_S5000x128_S128x13_S5000x13_1_0_0_1_n_n.rhsBatch by decide), dif_pos (show (1 : Fin S128x13.rank) ∈ dot_S5000x128_S128x13_S5000x13_1_0_0_1_n_n.rhsNonContracting by decide)]
  rfl

/-- The block product into the zero splat, at row p and column j: the sum over the 128 contracted features. -/
theorem mm_apply {φ₁ φ₂ : FTy} (a : FVec Ideal S5000x128 φ₁) (w : FVec Ideal S128x13 φ₂) (p : Fin 5000) (j : Fin 13) :
    matmul dot_S5000x128_S128x13_S5000x13_1_0_0_1_n_n none a w (constant (F := Ideal) S5000x13 .f32 0x00000000#32) (ix2 p j)
      = ∑ k : Fin 128, a (ix2 p k) * w (ix2 k j) := by
  simp only [matmul]
  rw [Ideal.matmul_constant_zero_apply, ← Equiv.sum_comp (ValueIdx.contrEquiv1 dot_S5000x128_S128x13_S5000x13_1_0_0_1_n_n 128 rfl rfl).symm]
  refine Finset.sum_congr rfl fun k _ => ?_
  have hk := ValueIdx.contrEquiv1_symm_val dot_S5000x128_S128x13_S5000x13_1_0_0_1_n_n 128 rfl rfl k
  have el : dot_S5000x128_S128x13_S5000x13_1_0_0_1_n_n.lhsIdx (ix2 p j) ((ValueIdx.contrEquiv1 dot_S5000x128_S128x13_S5000x13_1_0_0_1_n_n 128 rfl rfl).symm k) = ix2 p k := funext fun a => Fin.ext (by
    match a with
    | ⟨0, _⟩ => exact mmL0 _ _
    | ⟨1, _⟩ => exact (mmL1 _ _).trans hk)
  have er : dot_S5000x128_S128x13_S5000x13_1_0_0_1_n_n.rhsIdx (ix2 p j) ((ValueIdx.contrEquiv1 dot_S5000x128_S128x13_S5000x13_1_0_0_1_n_n 128 rfl rfl).symm k) = ix2 k j := funext fun a => Fin.ext (by
    match a with
    | ⟨0, _⟩ => exact (mmR0 _ _).trans hk
    | ⟨1, _⟩ => exact mmR1 _ _)
  rw [el, er]

/-! ## The logistic of the pre-activation, read at an index -/

/-- A whole-block operand of a product, narrowed: the operand itself at every index. -/
theorem narrowed_apply (x : Vec Ideal S5000x128 .f32) (i : S5000x128.Idx) :
    (truncf .bf16 (shapeCast S5000x128 x shapeCasts_S5000x128_S5000x128) bitsLt_bf16_f32 : FVec Ideal S5000x128 .bf16) i = x i := by
  show shapeCast S5000x128 x shapeCasts_S5000x128_S5000x128 i = x i
  rw [shapeCast_self]

/-- The bias as one row broadcast down the block: at (p, j) it is b j. -/
theorem bias_apply (x4 : Vec Ideal S13 .f32) (p : Fin 5000) (j : Fin 13) :
    broadcastTo S5000x13 (shapeCast S1x13 x4 shapeCasts_S13_S1x13) broadcasts_S1x13_S5000x13 (ix2 p j) = x4 (ix1 j) :=
  (broadcastTo_1b_ab_apply _ _ p j).trans (shapeCast_a_1a_apply x4 _ 0 j)

/-- The block's activation before the hierarchy maximum, at row p and class j: the logistic of
    mean · Wl + h · Wr + b there (the narrowing of the operands is the identity on extended reals). -/
theorem pay2_apply (x0 x1 : Vec Ideal S5000x128 .f32) (x2 x3 : Vec Ideal S128x13 .f32) (x4 : Vec Ideal S13 .f32) (p : Fin 5000) (j : Fin 13) :
    k2_pay2 (F := Ideal) x0 x1 x2 x3 x4 (ix2 p j)
      = Ideal.logistic ((∑ k : Fin 128, x0 (ix2 p k) * x2 (ix2 k j)) + (∑ k : Fin 128, x1 (ix2 p k) * x3 (ix2 k j)) + x4 (ix1 j)) := by
  unfold k2_pay2
  show Ideal.logistic (_ + _ + _) = _
  refine congrArg Ideal.logistic (congrArg₂ (· + ·) (congrArg₂ (· + ·) ?_ ?_) (bias_apply x4 p j))
  · exact (mm_apply _ _ p j).trans (Finset.sum_congr rfl fun k _ => congrArg (· * _) (narrowed_apply x0 _))
  · exact (mm_apply _ _ p j).trans (Finset.sum_congr rfl fun k _ => congrArg (· * _) (narrowed_apply x1 _))

/-! ## One class's column of the block: the row maximum of y · R i -/

/-- Row i of the hierarchy matrix — sliced out, flattened, put back as one row and broadcast down the
    block — is R i j at (p, j). -/
theorem row_apply (R : FVec Ideal S13x13 .f32) (o : Nat) (h : S13x13.Slices ![o, 0] S1x13) (i : Fin 13) (hi : i.val = o)
    (p : Fin 5000) (j : Fin 13) :
    broadcastTo S5000x13 (shapeCast S1x13 (shapeCast S1x13 (shapeCast S13 (extractStridedSlice S1x13 ![o, 0] R h) shapeCasts_S1x13_S13) shapeCasts_S13_S1x13) shapeCasts_S1x13_S1x13) broadcasts_S1x13_S5000x13 (ix2 p j)
      = R (ix2 i j) := by
  refine (broadcastTo_1b_ab_apply _ _ p j).trans ?_
  rw [shapeCast_self]
  refine (shapeCast_a_1a_apply _ _ 0 j).trans ?_
  refine (shapeCast_1a_a_apply _ _ j).trans ?_
  exact slice2_axis0_apply o R h 0 j i (by simpa using hi)

/-- The index over lane index p with class j put back on the reduced axis is (p, j). -/
theorem lift_eq (p : Fin 5000) (j : Fin 13) : reduces_S5000x13_S5000.lift (ix1 p) j = ix2 p j :=
  funext fun a => Fin.ext (by match a with | ⟨0, _⟩ => rfl | ⟨1, _⟩ => rfl)

/-- The lane maximum (from -∞) of a product of two blocks, kept as a column: at row p it is the fold of
    max over the 13 classes of the products in that row. -/
theorem colmax_apply (y B : FVec Ideal S5000x13 .f32) (p : Fin 5000) (u : Fin 1) :
    shapeCast S5000x1 (multiReduction .maximumf [1] S5000 (mulf y B) 0xFF800000#32 reduces_S5000x13_S5000 (.inl rfl) rfl) shapeCasts_S5000_S5000x1 (ix2 p u)
      = (Finset.univ : Finset (Fin 13)).fold max (Ideal.ofBits .f32 0xFF800000#32) (fun j => y (ix2 p j) * B (ix2 p j)) := by
  refine (shapeCast_apply _ shapeCasts_S5000_S5000x1 (ix2 p u) (ix1 p) ?_).trans ?_
  · rw [Shape.rowMajor_val_two, Shape.rowMajor_val_one]
    show p.val = p.val * 1 + u.val
    omega
  refine (Ideal.multiReduction_maximumf_single (mulf y B) 0xFF800000#32 reduces_S5000x13_S5000 (.inl rfl) rfl (ix1 p)).trans ?_
  refine congrArg (fun f => Finset.fold max (Ideal.ofBits .f32 0xFF800000#32) f (Finset.univ : Finset (Fin 13))) (funext fun j => ?_)
  exact congrArg (fun ix => y ix * B ix) (lift_eq p j)

/-- The column of class i: the row maximum over j of y[p, j] · R[i, j], from -∞. -/
theorem col_apply (y : FVec Ideal S5000x13 .f32) (R : FVec Ideal S13x13 .f32) (o : Nat) (h : S13x13.Slices ![o, 0] S1x13) (i : Fin 13) (hi : i.val = o)
    (p : Fin 5000) (u : Fin 1) :
    shapeCast S5000x1 (multiReduction .maximumf [1] S5000 (mulf y (broadcastTo S5000x13 (shapeCast S1x13 (shapeCast S1x13 (shapeCast S13 (extractStridedSlice S1x13 ![o, 0] R h) shapeCasts_S1x13_S13) shapeCasts_S13_S1x13) shapeCasts_S1x13_S1x13) broadcasts_S1x13_S5000x13)) 0xFF800000#32 reduces_S5000x13_S5000 (.inl rfl) rfl) shapeCasts_S5000_S5000x1 (ix2 p u)
      = (Finset.univ : Finset (Fin 13)).fold max (Ideal.ofBits .f32 0xFF800000#32) (fun j => y (ix2 p j) * R (ix2 i j)) :=
  (colmax_apply y _ p u).trans
    (congrArg (fun f => Finset.fold max (Ideal.ofBits .f32 0xFF800000#32) f (Finset.univ : Finset (Fin 13)))
      (funext fun j => congrArg (y (ix2 p j) * ·) (row_apply R o h i hi p j)))

/-! ## The thirteen columns side by side -/

/-- A concatenation along axis 1 of one-wide columns, read at (p, i): column number i at row p. -/
theorem piece_apply {α : Type} (xs : List ((s : Shape) × (s.Idx → α))) (h : Shape.Concatenates (xs.map (·.1)) S5000x13 1)
    (k : Nat) (hk : k < xs.length) (col : S5000x1.Idx → α) (hxk : xs[k] = ⟨S5000x1, col⟩)
    (hpre : (((xs.take k).map (·.1)).map fun s => if h : s.rank = S5000x13.rank then s.size ((1 : Fin S5000x13.rank).cast h.symm) else 0).sum = k)
    (p : Fin 5000) (i : Fin 13) (hik : i.val = k) :
    concatenate S5000x13 1 xs h (ix2 p i) = col (ix2 p (0 : Fin 1)) :=
  concatenate_apply_piece 1 xs h (ix2 p i) k hk S5000x1 col hxk rfl k hpre (ix2 p (0 : Fin 1))
    (fun b hb => by match b with | ⟨0, _⟩ => rfl | ⟨1, _⟩ => exact absurd rfl hb)
    (by show k + 0 = i.val; omega)

/-- The stored block at row p and class i, over the matrix as the body re-reads it: the maximum over j,
    from -∞, of y[p, j] · R[i, j], with y the block's logistic activation. The body spells the thirteen
    columns in four ways (the first two and the third from the input blocks, six from y and R, one from y
    and the broadcast row, three in the stored value itself); each is the column of its class. -/
theorem out_apply_aux (x0 x1 : Vec Ideal S5000x128 .f32) (x2 x3 : Vec Ideal S128x13 .f32) (x4 : Vec Ideal S13 .f32) (x5 : Vec Ideal S13x13 .f32)
    (p : Fin 5000) (i : Fin 13) :
    k2_pay1 (F := Ideal) (k2_pay2 x0 x1 x2 x3 x4) (k2_pay3 x5) (k2_pay4 x0 x1 x2 x3 x4 x5) (k2_pay5 x0 x1 x2 x3 x4 x5) (k2_pay7 (k2_pay6 x0 x1 x2 x3 x4 x5))
        (k2_pay8 (k2_pay2 x0 x1 x2 x3 x4) (k2_pay3 x5)) (k2_pay9 (k2_pay2 x0 x1 x2 x3 x4) (k2_pay3 x5)) (k2_pay10 (k2_pay2 x0 x1 x2 x3 x4) (k2_pay3 x5))
        (k2_pay11 (k2_pay2 x0 x1 x2 x3 x4) (k2_pay3 x5)) (k2_pay12 (k2_pay2 x0 x1 x2 x3 x4) (k2_pay3 x5)) (k2_pay13 (k2_pay2 x0 x1 x2 x3 x4) (k2_pay3 x5))
        (k2_pay14 (k2_pay3 x5)) (ix2 p i)
      = (Finset.univ : Finset (Fin 13)).fold max (Ideal.ofBits .f32 0xFF800000#32)
          (fun j => k2_pay2 (F := Ideal) x0 x1 x2 x3 x4 (ix2 p j) * k2_pay3 (F := Ideal) x5 (ix2 i j)) := by
  unfold k2_pay1
  match i with
  | ⟨0, _⟩ =>
    exact (piece_apply _ _ 0 (by show 0 < 13; omega) _ (by rfl) (by rfl) p _ (by rfl)).trans (by unfold k2_pay4; exact col_apply _ _ 0 _ _ rfl p 0)
  | ⟨1, _⟩ =>
    exact (piece_apply _ _ 1 (by show 1 < 13; omega) _ (by rfl) (by rfl) p _ (by rfl)).trans (by unfold k2_pay5; exact col_apply _ _ 1 _ _ rfl p 0)
  | ⟨2, _⟩ =>
    exact (piece_apply _ _ 2 (by show 2 < 13; omega) _ (by rfl) (by rfl) p _ (by rfl)).trans (by unfold k2_pay7 k2_pay6; exact col_apply _ _ 2 _ _ rfl p 0)
  | ⟨3, _⟩ =>
    exact (piece_apply _ _ 3 (by show 3 < 13; omega) _ (by rfl) (by rfl) p _ (by rfl)).trans (by unfold k2_pay8; exact col_apply _ _ 3 _ _ rfl p 0)
  | ⟨4, _⟩ =>
    exact (piece_apply _ _ 4 (by show 4 < 13; omega) _ (by rfl) (by rfl) p _ (by rfl)).trans (by unfold k2_pay9; exact col_apply _ _ 4 _ _ rfl p 0)
  | ⟨5, _⟩ =>
    exact (piece_apply _ _ 5 (by show 5 < 13; omega) _ (by rfl) (by rfl) p _ (by rfl)).trans (by unfold k2_pay10; exact col_apply _ _ 5 _ _ rfl p 0)
  | ⟨6, _⟩ =>
    exact (piece_apply _ _ 6 (by show 6 < 13; omega) _ (by rfl) (by rfl) p _ (by rfl)).trans (by unfold k2_pay11; exact col_apply _ _ 6 _ _ rfl p 0)
  | ⟨7, _⟩ =>
    exact (piece_apply _ _ 7 (by show 7 < 13; omega) _ (by rfl) (by rfl) p _ (by rfl)).trans (by unfold k2_pay12; exact col_apply _ _ 7 _ _ rfl p 0)
  | ⟨8, _⟩ =>
    exact (piece_apply _ _ 8 (by show 8 < 13; omega) _ (by rfl) (by rfl) p _ (by rfl)).trans (by unfold k2_pay13; exact col_apply _ _ 8 _ _ rfl p 0)
  | ⟨9, _⟩ =>
    exact (piece_apply _ _ 9 (by show 9 < 13; omega) _ (by rfl) (by rfl) p _ (by rfl)).trans ((colmax_apply _ _ p 0).trans (congrArg (fun f => Finset.fold max (Ideal.ofBits .f32 0xFF800000#32) f (Finset.univ : Finset (Fin 13)))
        (funext fun j => congrArg (_ * ·) (by unfold k2_pay14; exact row_apply _ 9 _ _ rfl p j))))
  | ⟨10, _⟩ =>
    exact (piece_apply _ _ 10 (by show 10 < 13; omega) _ (by rfl) (by rfl) p _ (by rfl)).trans (col_apply _ _ 10 _ _ rfl p 0)
  | ⟨11, _⟩ =>
    exact (piece_apply _ _ 11 (by show 11 < 13; omega) _ (by rfl) (by rfl) p _ (by rfl)).trans (col_apply _ _ 11 _ _ rfl p 0)
  | ⟨12, _⟩ =>
    exact (piece_apply _ _ 12 (by show 12 < 13; omega) _ (by rfl) (by rfl) p _ (by rfl)).trans (col_apply _ _ 12 _ _ rfl p 0)
  | ⟨n + 13, h⟩ => exact absurd h (by omega)

/-- What a point stores in the output block, from its six input blocks. -/
def stored (x0 x1 : Vec Ideal S5000x128 .f32) (x2 x3 : Vec Ideal S128x13 .f32) (x4 : Vec Ideal S13 .f32) (x5 : Vec Ideal S13x13 .f32) : Vec Ideal S5000x13 .f32 :=
  k2_pay1 (F := Ideal) (k2_pay2 x0 x1 x2 x3 x4) (k2_pay3 x5) (k2_pay4 x0 x1 x2 x3 x4 x5) (k2_pay5 x0 x1 x2 x3 x4 x5) (k2_pay7 (k2_pay6 x0 x1 x2 x3 x4 x5))
        (k2_pay8 (k2_pay2 x0 x1 x2 x3 x4) (k2_pay3 x5)) (k2_pay9 (k2_pay2 x0 x1 x2 x3 x4) (k2_pay3 x5)) (k2_pay10 (k2_pay2 x0 x1 x2 x3 x4) (k2_pay3 x5))
        (k2_pay11 (k2_pay2 x0 x1 x2 x3 x4) (k2_pay3 x5)) (k2_pay12 (k2_pay2 x0 x1 x2 x3 x4) (k2_pay3 x5)) (k2_pay13 (k2_pay2 x0 x1 x2 x3 x4) (k2_pay3 x5))
        (k2_pay14 (k2_pay3 x5))

/-- The stored block at row p and class i: the maximum over j, from -∞, of y[p, j] · R[i, j], with y the
    logistic of mean · Wl + h · Wr + b over the point's blocks (re-reading the matrix block at its own
    shape changes nothing). -/
theorem stored_apply (x0 x1 : Vec Ideal S5000x128 .f32) (x2 x3 : Vec Ideal S128x13 .f32) (x4 : Vec Ideal S13 .f32) (x5 : Vec Ideal S13x13 .f32)
    (p : Fin 5000) (i : Fin 13) :
    stored x0 x1 x2 x3 x4 x5 (ix2 p i)
      = (Finset.univ : Finset (Fin 13)).fold max (Ideal.ofBits .f32 0xFF800000#32)
          (fun j => Ideal.logistic ((∑ k : Fin 128, x0 (ix2 p k) * x2 (ix2 k j)) + (∑ k : Fin 128, x1 (ix2 p k) * x3 (ix2 k j)) + x4 (ix1 j)) * x5 (ix2 i j)) := by
  have hR : k2_pay3 (F := Ideal) x5 = x5 := shapeCast_self x5 _
  unfold stored
  refine (out_apply_aux x0 x1 x2 x3 x4 x5 p i).trans ?_
  rw [hR]
  refine congrArg (fun f => Finset.fold max (Ideal.ofBits .f32 0xFF800000#32) f (Finset.univ : Finset (Fin 13))) (funext fun j => ?_)
  rw [pay2_apply]

/-! ## Layer three of the reference, read at a node and a class -/

/-- The reference's [100000, 128] × [128, 13] product at node n and column j: the sum over the 128
    contracted features. -/
theorem mm13_apply (a : Cert.Layers.Arr Ideal Cert.ReferenceIdeal.S100000x128 .f32) (w : Cert.Layers.Arr Ideal Cert.ReferenceIdeal.S128x13 .f32)
    (n : Fin 100000) (j : Fin 13) :
    Cert.Layers.mm13 (F := Ideal) a w (ix2 n j) = ∑ k : Fin 128, a (ix2 n k) * w (ix2 k j) := by
  unfold Cert.Layers.mm13
  simp only [Host.dotGeneral]
  rw [Ideal.dotGeneral_apply, ← Equiv.sum_comp (ValueIdx.contrEquiv1 Cert.ReferenceIdeal.dot_S100000x128_S128x13_S100000x13_1_0_0_1_n_n 128 rfl rfl).symm]
  refine Finset.sum_congr rfl fun k _ => ?_
  have hk := ValueIdx.contrEquiv1_symm_val Cert.ReferenceIdeal.dot_S100000x128_S128x13_S100000x13_1_0_0_1_n_n 128 rfl rfl k
  have el : Cert.ReferenceIdeal.dot_S100000x128_S128x13_S100000x13_1_0_0_1_n_n.lhsIdx (ix2 n j) ((ValueIdx.contrEquiv1 Cert.ReferenceIdeal.dot_S100000x128_S128x13_S100000x13_1_0_0_1_n_n 128 rfl rfl).symm k) = ix2 n k := funext fun a => Fin.ext (by
    match a with
    | ⟨0, _⟩ => exact Cert.ReferenceIdeal.Read.lhs_main_v75_0 _ _
    | ⟨1, _⟩ => exact (Cert.ReferenceIdeal.Read.lhs_main_v75_1 _ _).trans hk)
  have er : Cert.ReferenceIdeal.dot_S100000x128_S128x13_S100000x13_1_0_0_1_n_n.rhsIdx (ix2 n j) ((ValueIdx.contrEquiv1 Cert.ReferenceIdeal.dot_S100000x128_S128x13_S100000x13_1_0_0_1_n_n 128 rfl rfl).symm k) = ix2 k j := funext fun a => Fin.ext (by
    match a with
    | ⟨0, _⟩ => exact (Cert.ReferenceIdeal.Read.rhs_main_v75_0 _ _).trans hk
    | ⟨1, _⟩ => exact Cert.ReferenceIdeal.Read.rhs_main_v75_1 _ _)
  rw [el, er]

/-- The pre-activation at node n and class j. -/
theorem preact3_apply (mean h : Cert.Layers.Arr Ideal Cert.ReferenceIdeal.S100000x128 .f32) (wl wr : Cert.Layers.Arr Ideal Cert.ReferenceIdeal.S128x13 .f32)
    (b : Cert.Layers.Arr Ideal Cert.ReferenceIdeal.S13 .f32) (n : Fin 100000) (j : Fin 13) :
    Cert.Layers.preact3 (F := Ideal) mean h wl wr b (ix2 n j)
      = (∑ k : Fin 128, mean (ix2 n k) * wl (ix2 k j)) + (∑ k : Fin 128, h (ix2 n k) * wr (ix2 k j)) + b (ix1 j) := by
  unfold Cert.Layers.preact3
  show Cert.Layers.mm13 (F := Ideal) mean wl (ix2 n j) + Cert.Layers.mm13 (F := Ideal) h wr (ix2 n j) + Cert.ReferenceIdeal.Read.val_main_v79 (F := Ideal) b (ix2 n j) = _
  rw [mm13_apply, mm13_apply, Cert.ReferenceIdeal.Read.val_main_v79_apply, Cert.ReferenceIdeal.Read.val_main_v78_apply]
  refine congrArg (_ + ·) (congrArg b (funext fun a => Fin.ext (by match a with | ⟨0, _⟩ => rfl)))

/-- The word of 1.0 denotes the extended real 1. -/
theorem ofBits_one : Ideal.ofBits .f32 0x3F800000#32 = 1 := by
  simp [Ideal.ofBits, Ideal.ieee, -EReal.coe_mul]; norm_num

/-- The reference's 1 / (1 + exp (-y)) at an index is the logistic function of the entry. -/
theorem sigm_apply (y : Cert.Layers.Arr Ideal Cert.ReferenceIdeal.S100000x13 .f32) (i : Cert.ReferenceIdeal.S100000x13.Idx) :
    Cert.Layers.sigm (F := Ideal) y i = Ideal.logistic (y i) := by
  unfold Cert.Layers.sigm
  show Ideal.div (Cert.ReferenceIdeal.Read.val_main_v85 (F := Ideal) i) (Cert.ReferenceIdeal.Read.val_main_v83 (F := Ideal) i + Ideal.exp (-(y i))) = Ideal.div 1 (1 + Ideal.exp (-(y i)))
  rw [Cert.ReferenceIdeal.Read.val_main_v85_apply, Cert.ReferenceIdeal.Read.val_main_v83_apply]
  show Ideal.div (Ideal.ofBits .f32 0x3F800000#32) (Ideal.ofBits .f32 0x3F800000#32 + _) = _
  rw [ofBits_one]

/-- The reduced shape's fact in the form that names the inserted index. -/
theorem hReduces : Cert.ReferenceIdeal.S100000x13x13.Reduces [2] Cert.ReferenceIdeal.S100000x13 := by decide

/-- The index over (n, i) with j put back on the reduced last axis is (n, i, j). -/
theorem lift3_eq (n : Fin 100000) (i j : Fin 13) : hReduces.lift (ix2 n i) j = ix3 n i j :=
  funext fun a => Fin.ext (by match a with | ⟨0, _⟩ => rfl | ⟨1, _⟩ => rfl | ⟨2, _⟩ => rfl)

/-- The hierarchy matrix broadcast over the nodes reads R[i, j] at (n, i, j). -/
theorem rfB_apply (rf : Cert.Layers.Arr Ideal Cert.ReferenceIdeal.S13x13 .f32) (n : Fin 100000) (i j : Fin 13) :
    broadcastInDim Cert.ReferenceIdeal.S100000x13x13 ![0, 1, 2] Cert.ReferenceIdeal.Gen.bcast_S1x13x13_S100000x13x13_0_1_2
        (broadcastInDim Cert.ReferenceIdeal.S1x13x13 ![1, 2] Cert.ReferenceIdeal.Gen.bcast_S13x13_S1x13x13_1_2 rf) (ix3 n i j)
      = rf (ix2 i j) := by
  refine (broadcastInDim_apply _ _ _ (ix3 n i j) (ix3 (0 : Fin 1) i j) (fun a => by
    match a with
    | ⟨0, _⟩ => show 0 = if (1 : Nat) = 1 then 0 else n.val; rw [if_pos rfl]
    | ⟨1, _⟩ => show i.val = if (13 : Nat) = 1 then 0 else i.val; rw [if_neg (by decide)]
    | ⟨2, _⟩ => show j.val = if (13 : Nat) = 1 then 0 else j.val; rw [if_neg (by decide)])).trans ?_
  exact broadcastInDim_apply _ _ rf (ix3 (0 : Fin 1) i j) (ix2 i j) (fun a => by
    match a with
    | ⟨0, _⟩ => show i.val = if (13 : Nat) = 1 then 0 else i.val; rw [if_neg (by decide)]
    | ⟨1, _⟩ => show j.val = if (13 : Nat) = 1 then 0 else j.val; rw [if_neg (by decide)])

/-- The activations broadcast over the classes read s[n, j] at (n, i, j). -/
theorem sB_apply (s : Cert.Layers.Arr Ideal Cert.ReferenceIdeal.S100000x13 .f32) (n : Fin 100000) (i j : Fin 13) :
    broadcastInDim Cert.ReferenceIdeal.S100000x13x13 ![0, 1, 2] Cert.ReferenceIdeal.Gen.bcast_S100000x1x13_S100000x13x13_0_1_2
        (broadcastInDim Cert.ReferenceIdeal.S100000x1x13 ![0, 2] Cert.ReferenceIdeal.Gen.bcast_S100000x13_S100000x1x13_0_2 s) (ix3 n i j)
      = s (ix2 n j) := by
  refine (broadcastInDim_apply _ _ _ (ix3 n i j) (ix3 n (0 : Fin 1) j) (fun a => by
    match a with
    | ⟨0, _⟩ => show n.val = if (100000 : Nat) = 1 then 0 else n.val; rw [if_neg (by decide)]
    | ⟨1, _⟩ => show 0 = if (1 : Nat) = 1 then 0 else i.val; rw [if_pos rfl]
    | ⟨2, _⟩ => show j.val = if (13 : Nat) = 1 then 0 else j.val; rw [if_neg (by decide)])).trans ?_
  exact broadcastInDim_apply _ _ s (ix3 n (0 : Fin 1) j) (ix2 n j) (fun a => by
    match a with
    | ⟨0, _⟩ => show n.val = if (100000 : Nat) = 1 then 0 else n.val; rw [if_neg (by decide)]
    | ⟨1, _⟩ => show j.val = if (13 : Nat) = 1 then 0 else j.val; rw [if_neg (by decide)])

/-- The hierarchy maximum at node n and class i: the fold of max, from -∞, over j of R[i, j] · s[n, j]. -/
theorem hierMax_apply (rf : Cert.Layers.Arr Ideal Cert.ReferenceIdeal.S13x13 .f32) (s : Cert.Layers.Arr Ideal Cert.ReferenceIdeal.S100000x13 .f32)
    (n : Fin 100000) (i : Fin 13) :
    Cert.Layers.hierMax (F := Ideal) rf s (ix2 n i)
      = (Finset.univ : Finset (Fin 13)).fold max (Ideal.ofBits .f32 0xFF800000#32) (fun j => rf (ix2 i j) * s (ix2 n j)) := by
  unfold Cert.Layers.hierMax
  refine (Host.reduce_eq_fold_single _ _ _ _ hReduces _ (ix2 n i)).trans ?_
  refine congrArg (fun f => Finset.fold max (Ideal.ofBits .f32 0xFF800000#32) f (Finset.univ : Finset (Fin 13))) (funext fun j => ?_)
  refine (congrArg (fun ix => _ * _) (lift3_eq n i j)).trans ?_
  exact congrArg₂ (· * ·) (rfB_apply rf n i j) (sB_apply s n i j)

/-- Layer three at node n and class i: the maximum over j, from -∞, of R[i, j] times the logistic of the
    pre-activation at (n, j). -/
theorem dense3_apply (mean h : Cert.Layers.Arr Ideal Cert.ReferenceIdeal.S100000x128 .f32) (wl wr : Cert.Layers.Arr Ideal Cert.ReferenceIdeal.S128x13 .f32)
    (b : Cert.Layers.Arr Ideal Cert.ReferenceIdeal.S13 .f32) (rf : Cert.Layers.Arr Ideal Cert.ReferenceIdeal.S13x13 .f32) (n : Fin 100000) (i : Fin 13) :
    Cert.Layers.dense3 (F := Ideal) mean h wl wr b rf (ix2 n i)
      = (Finset.univ : Finset (Fin 13)).fold max (Ideal.ofBits .f32 0xFF800000#32)
          (fun j => rf (ix2 i j) * Ideal.logistic ((∑ k : Fin 128, mean (ix2 n k) * wl (ix2 k j)) + (∑ k : Fin 128, h (ix2 n k) * wr (ix2 k j)) + b (ix1 j))) := by
  unfold Cert.Layers.dense3
  refine (hierMax_apply rf _ n i).trans ?_
  refine congrArg (fun f => Finset.fold max (Ideal.ofBits .f32 0xFF800000#32) f (Finset.univ : Finset (Fin 13))) (funext fun j => ?_)
  rw [sigm_apply, preact3_apply]

/-! ## A stored block is a block of layer three -/

/-- If a point's row blocks hold rows 5000 r … of the two feature arrays and its other blocks the whole
    weight, bias and hierarchy arrays, what it stores at (p, i) is layer three at node 5000 r + p and class i:
    the two sides differ by the order of the factors under the maximum. -/
theorem block_eq (mean h : Cert.Layers.Arr Ideal Cert.ReferenceIdeal.S100000x128 .f32) (wl wr : Cert.Layers.Arr Ideal Cert.ReferenceIdeal.S128x13 .f32)
    (b : Cert.Layers.Arr Ideal Cert.ReferenceIdeal.S13 .f32) (rf : Cert.Layers.Arr Ideal Cert.ReferenceIdeal.S13x13 .f32)
    (x0 x1 : Vec Ideal S5000x128 .f32) (x2 x3 : Vec Ideal S128x13 .f32) (x4 : Vec Ideal S13 .f32) (x5 : Vec Ideal S13x13 .f32)
    (r : Nat) (p : Fin 5000) (i : Fin 13) (hr : 5000 * r + p.val < 100000)
    (h0 : ∀ k : Fin 128, x0 (ix2 p k) = mean (ix2 ⟨5000 * r + p.val, hr⟩ k))
    (h1 : ∀ k : Fin 128, x1 (ix2 p k) = h (ix2 ⟨5000 * r + p.val, hr⟩ k))
    (h2 : x2 = wl) (h3 : x3 = wr) (h4 : x4 = b) (h5 : x5 = rf) :
    stored x0 x1 x2 x3 x4 x5 (ix2 p i)
      = Cert.Layers.dense3 (F := Ideal) mean h wl wr b rf (ix2 ⟨5000 * r + p.val, hr⟩ i) := by
  subst h2 h3 h4 h5
  rw [stored_apply, dense3_apply]
  refine congrArg (fun f => Finset.fold max (Ideal.ofBits .f32 0xFF800000#32) f (Finset.univ : Finset (Fin 13))) (funext fun j => ?_)
  rw [mul_comm]
  refine congrArg (_ * Ideal.logistic ·) (congrArg₂ (· + ·) (congrArg₂ (· + ·) ?_ ?_) rfl)
  · exact Finset.sum_congr rfl fun k _ => congrArg (· * _) (h0 k)
  · exact Finset.sum_congr rfl fun k _ => congrArg (· * _) (h1 k)

/-! ## From blocks to the array -/

/-- The zero offsets of a whole-block access, rank 2 … -/
theorem hz2 : (![0, 0] : Fin 2 → Nat) = fun _ => 0 := funext fun a => by fin_cases a <;> rfl
/-- … and rank 1. -/
theorem hz1 : (![0] : Fin 1 → Nat) = fun _ => 0 := funext fun a => by fin_cases a; rfl

/-- The output buffer after the body is the stored block: its one store covers the buffer, and each load
    reads a whole input block. -/
theorem out2_6_eq (x0 x1 : Vec Ideal S5000x128 .f32) (x2 x3 : Vec Ideal S128x13 .f32) (x4 : Vec Ideal S13 .f32) (x5 : Vec Ideal S13x13 .f32) :
    out2_6 (F := Ideal) x0 x1 x2 x3 x4 x5 = stored x0 x1 x2 x3 x4 x5 := by
  unfold out2_6
  rw [View.canon_unit_zero hz2]
  simp only [View.ld_unit_zero (S := S5000x128) hz2, View.ld_unit_zero (S := S128x13) hz2, View.ld_unit_zero (S := S13) hz1, View.ld_unit_zero (S := S13x13) hz2]
  rfl

/-- The index maps over the grid: the row-block windows (the two feature arrays and the output) are at block t
    along the rows, the whole-array windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A block of the output array read through its window: the array at the block's embedded index. -/
theorem read_blk (c : Dev nD) (t : Fin cfg2.N) (G : Buf (Elt Ideal) ((c : Thread nD τ).loc main_v64))
    (y : ((cfg2.win 6).xblock (grid2.coords t)).Idx) :
    ((cfg2.win 6).blk t).view.read (Elt Ideal) G y = G (((cfg2.win 6).blk t).view.emb y) := rfl

/-- What point t writes back is block t of layer three of the region's entry arrays: each input block is the
    rows 5000 t … of its array (the feature arrays) or the whole array, and the block's index (p, i) sits at
    (5000 t + p, i) of the output array. -/
theorem flushed_eq (c : Dev nD) (t : Fin cfg2.N) :
    (dat2 (F := Ideal) V c).flushed 6 t
      = ((cfg2.win 6).blk t).view.read (Elt Ideal)
          (Cert.Layers.dense3 (F := Ideal) (V c main_v63) (V c main_v43) (V c main_arg7) (V c main_arg8) (V c main_arg9) (V c main_v44)) := by
  show (cfg2.win 6).cut (grid2.coords t) ((dat2 V c).after 6 t) = _
  rw [after2_6]
  refine (congrArg (fun X => (cfg2.win 6).cut (grid2.coords t) X) (out2_6_eq (iblk2 V c 0 t) (iblk2 V c 1 t) (iblk2 V c 2 t) (iblk2 V c 3 t) (iblk2 V c 4 t) (iblk2 V c 5 t))).trans ?_
  obtain ⟨e00, e01, e10, e11, e20, e21, e30, e31, e40, e50, e51, e60, e61⟩ := idx_facts t
  have ht : t.val < 20 := t.isLt
  funext y
  have hy0 : (y 0).val < 5000 := (y 0).isLt
  have hy1 : (y 1).val < 13 := (y 1).isLt
  have hy : (win2 6).xinj (grid2.coords t) y = ix2 (⟨(y 0).val, hy0⟩ : Fin 5000) (⟨(y 1).val, hy1⟩ : Fin 13) :=
    funext fun a => Fin.ext (by match a with | ⟨0, _⟩ => rfl | ⟨1, _⟩ => rfl)
  refine Eq.trans (congrArg (stored (iblk2 V c 0 t) (iblk2 V c 1 t) (iblk2 V c 2 t) (iblk2 V c 3 t) (iblk2 V c 4 t) (iblk2 V c 5 t)) hy) ?_
  refine (block_eq (V c main_v63) (V c main_v43) (V c main_arg7) (V c main_arg8) (V c main_arg9) (V c main_v44) (iblk2 V c 0 t) (iblk2 V c 1 t) (iblk2 V c 2 t) (iblk2 V c 3 t) (iblk2 V c 4 t) (iblk2 V c 5 t) t.val ⟨(y 0).val, hy0⟩ ⟨(y 1).val, hy1⟩ (by show 5000 * t.val + (y 0).val < 100000; omega) ?_ ?_ ?_ ?_ ?_ ?_).trans ?_
  · intro k
    show V c main_v63 (((cfg2.win 0).blk t).view.emb (ix2 (⟨(y 0).val, hy0⟩ : Fin 5000) k)) = _
    refine congrArg (V c main_v63) (funext fun a => Fin.ext ?_)
    match a with
    | ⟨0, _⟩ => show win2_0.index t (0 : Fin 2) * 5000 + 1 * (y 0).val = 5000 * t.val + (y 0).val; omega
    | ⟨1, _⟩ => show win2_0.index t (1 : Fin 2) * 128 + 1 * k.val = k.val; omega
  · intro k
    show V c main_v43 (((cfg2.win 1).blk t).view.emb (ix2 (⟨(y 0).val, hy0⟩ : Fin 5000) k)) = _
    refine congrArg (V c main_v43) (funext fun a => Fin.ext ?_)
    match a with
    | ⟨0, _⟩ => show win2_1.index t (0 : Fin 2) * 5000 + 1 * (y 0).val = 5000 * t.val + (y 0).val; omega
    | ⟨1, _⟩ => show win2_1.index t (1 : Fin 2) * 128 + 1 * k.val = k.val; omega
  · funext z
    show V c main_arg7 (((cfg2.win 2).blk t).view.emb z) = V c main_arg7 z
    refine congrArg (V c main_arg7) (funext fun a => Fin.ext ?_)
    match a with
    | ⟨0, _⟩ => show win2_2.index t (0 : Fin 2) * 128 + 1 * (z 0).val = (z 0).val; omega
    | ⟨1, _⟩ => show win2_2.index t (1 : Fin 2) * 13 + 1 * (z 1).val = (z 1).val; omega
  · funext z
    show V c main_arg8 (((cfg2.win 3).blk t).view.emb z) = V c main_arg8 z
    refine congrArg (V c main_arg8) (funext fun a => Fin.ext ?_)
    match a with
    | ⟨0, _⟩ => show win2_3.index t (0 : Fin 2) * 128 + 1 * (z 0).val = (z 0).val; omega
    | ⟨1, _⟩ => show win2_3.index t (1 : Fin 2) * 13 + 1 * (z 1).val = (z 1).val; omega
  · funext z
    show V c main_arg9 (((cfg2.win 4).blk t).view.emb z) = V c main_arg9 z
    refine congrArg (V c main_arg9) (funext fun a => Fin.ext ?_)
    match a with
    | ⟨0, _⟩ => show win2_4.index t (0 : Fin 1) * 13 + 1 * (z 0).val = (z 0).val; omega
  · funext z
    show V c main_v44 (((cfg2.win 5).blk t).view.emb z) = V c main_v44 z
    refine congrArg (V c main_v44) (funext fun a => Fin.ext ?_)
    match a with
    | ⟨0, _⟩ => show win2_5.index t (0 : Fin 2) * 13 + 1 * (z 0).val = (z 0).val; omega
    | ⟨1, _⟩ => show win2_5.index t (1 : Fin 2) * 13 + 1 * (z 1).val = (z 1).val; omega
  · refine (congrArg (Cert.Layers.dense3 (F := Ideal) (V c main_v63) (V c main_v43) (V c main_arg7) (V c main_arg8) (V c main_arg9) (V c main_v44)) (funext fun a => Fin.ext ?_)).trans
      (read_blk c t (Cert.Layers.dense3 (F := Ideal) (V c main_v63) (V c main_v43) (V c main_arg7) (V c main_arg8) (V c main_arg9) (V c main_v44)) y).symm
    match a with
    | ⟨0, _⟩ => show 5000 * t.val + (y 0).val = win2_6.index t (0 : Fin 2) * 5000 + 1 * (y 0).val; omega
    | ⟨1, _⟩ => show (y 1).val = win2_6.index t (1 : Fin 2) * 13 + 1 * (y 1).val; omega

/-- An index of the output array is in point t's block iff each coordinate is in the block's range on its axis. -/
theorem mem_blk (t : Fin cfg2.N) (i : S100000x13.Idx) :
    i ∈ ((cfg2.win 6).blk t).view.set ↔ ∀ a : Fin 2, win2_6.index t a * S5000x13.size a ≤ (i a).val ∧ (i a).val < win2_6.index t a * S5000x13.size a + S5000x13.size a := by
  show i ∈ ((View.whole main_v64).slice (win2_6.rect t)).set ↔ _
  rw [View.set_slice_whole, Rect.mem_set_unit]
  exact Iff.rfl

/-- The 20 row blocks tile the array: row r is in the block of point r / 5000. -/
theorem cover (i : S100000x13.Idx) : ∃ t : Fin cfg2.N, (cfg2.win 6).flush t = true ∧ i ∈ ((cfg2.win 6).blk t).view.set := by
  have hi0 : (i 0).val < 100000 := (i 0).isLt
  have hi1 : (i 1).val < 13 := (i 1).isLt
  have hN : cfg2.N = 20 := N_2
  have hq : (i 0).val / 5000 < cfg2.N := by rw [hN]; omega
  obtain ⟨-, -, -, -, -, -, -, -, -, -, -, e60, e61⟩ := idx_facts ⟨(i 0).val / 5000, hq⟩
  refine ⟨⟨(i 0).val / 5000, hq⟩, flush2_6 _, ?_⟩
  rw [mem_blk]
  intro a
  match a with
  | ⟨0, _⟩ =>
    show win2_6.index ⟨(i 0).val / 5000, hq⟩ (0 : Fin 2) * 5000 ≤ (i 0).val ∧ (i 0).val < win2_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, hq⟩ (1 : Fin 2) * 13 ≤ (i 1).val ∧ (i 1).val < win2_6.index ⟨(i 0).val / 5000, hq⟩ (1 : Fin 2) * 13 + 13
    rw [e61]
    omega

/-- After region 2 its output array is layer three of the entry contents of its six input arrays. -/
theorem arr_eq (c : Dev nD) :
    (dat2 (F := Ideal) V c).arrAt 6 cfg2.N
      = Cert.Layers.dense3 (F := Ideal) (V c main_v63) (V c main_v43) (V c main_arg7) (V c main_arg8) (V c main_arg9) (V c main_v44) :=
  (dat2 (F := Ideal) V c).arrAt_eq_of_cover 6 _ (fun t _ => flushed_eq V c t) (fun i => cover i)

end Cert.KernelIdeal.Region2

end
-- ==== Proof.Fold.lean ====
/-
  The idealized kernel program's result as a function of its arguments.

  The program alternates host stretches and dense-layer regions. At every boundary the buffers' contents are known:
  a host stretch applies its operations to the contents before it; a region leaves its output array at the layer
  function of the arrays it was entered with (the three region modules) and every other buffer as it found it.
  Reading the result buffer back through the six segments gives
    h1 = dense1 (mean12 x ei) x Wl0 Wr0 b0,   h2 = dense2 (mean128 h1 ei) h1 Wl1 Wr1 b1,
    out = dense3 (mean128 h2 ei) h2 Wl2 Wr2 b2 (float R),
  which is the reference's last stage: the host's neighbour means are the reference's own operations on the same
  edge list (its two index columns are computed once, before the first region, and no region writes them).
-/
import proofs.«122154_j34763465294563_1_alg».proof.Proof.Gen.KernelIdeal.Frame
import proofs.«122154_j34763465294563_1_alg».proof.Proof.Layers
import proofs.«122154_j34763465294563_1_alg».proof.Proof.Region0
import proofs.«122154_j34763465294563_1_alg».proof.Proof.Region1
import proofs.«122154_j34763465294563_1_alg».proof.Proof.Region2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v87)
open Cert.Layers (mean12 mean128 dense1 dense2 dense3)

variable (m : (ℓ : Loc nD τ sig) → Buf (Elt Ideal) ℓ) (ρ : Dev nD → PrngReg)

/-! ## The launch contents of the arguments, by name -/

/-- Node features. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)
abbrev x9 (c : Dev nD) := m ((c : Thread nD τ).loc main_arg9)
/-- The edge list. -/
abbrev x10 (c : Dev nD) := m ((c : Thread nD τ).loc main_arg10)
/-- The hierarchy matrix, as integers. -/
abbrev x11 (c : Dev nD) := m ((c : Thread nD τ).loc main_arg11)

/-- The first layer's output, of the arguments. -/
def h1 (c : Dev nD) : Cert.Layers.Arr Ideal Cert.ReferenceIdeal.S100000x128 .f32 :=
  dense1 (F := Ideal) (mean12 (F := Ideal) (x0 m c) (x10 m c)) (x0 m c) (x1 m c) (x2 m c) (x3 m c)

/-- The second layer's output, of the arguments. -/
def h2 (c : Dev nD) : Cert.Layers.Arr Ideal Cert.ReferenceIdeal.S100000x128 .f32 :=
  dense2 (F := Ideal) (mean128 (F := Ideal) (h1 m c) (x10 m c)) (h1 m c) (x4 m c) (x5 m c) (x6 m c)

/-- The result, of the arguments. -/
def out (c : Dev nD) : Cert.Layers.Arr Ideal Cert.ReferenceIdeal.S100000x13 .f32 :=
  dense3 (F := Ideal) (mean128 (F := Ideal) (h2 m c) (x10 m c)) (h2 m c) (x7 m c) (x8 m c) (x9 m c) (val_main_v87 (F := Ideal) (x11 m c))

/-- A host stretch leaves a buffer none of its operations writes as it found it: the goal
    `after ops W b = W b`, each operation's written buffer compared with `b`. -/
local macro "stretch_keeps" : tactic => `(tactic| (
  refine StableHlo.after_of_forall_not_mem _ _ (List.forall_iff_forall_mem.mp ?_)
  simp only [hostOps0, hostOps1, hostOps2, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Before region 0 -/

set_option maxHeartbeats 4000000 in
/-- The sources' column of the edge list, computed by the first host stretch. -/
theorem W1_v1 (c : Dev nD) : W1 m ρ c (Proc.devRef .tc main_v1) = val_main_v1 (F := Ideal) (x10 m c) := by
  show StableHlo.after hostOps0 (W0 m ρ c) (Proc.devRef .tc main_v1) = _
  after_results_simp
  rfl

set_option maxHeartbeats 4000000 in
/-- The destinations' column of the edge list. -/
theorem W1_v3 (c : Dev nD) : W1 m ρ c (Proc.devRef .tc main_v3) = val_main_v3 (F := Ideal) (x10 m c) := by
  show StableHlo.after hostOps0 (W0 m ρ c) (Proc.devRef .tc main_v3) = _
  after_results_simp
  rfl

set_option maxHeartbeats 4000000 in
/-- Region 0 is entered with the neighbour mean of the features. -/
theorem V1_mean (c : Dev nD) : V1 m ρ c main_v22 = mean12 (F := Ideal) (x0 m c) (x10 m c) := by
  show StableHlo.after hostOps0 (W0 m ρ c) (Proc.devRef .tc main_v22) = _
  after_results_simp
  rfl

/-- The first host stretch writes no argument. -/
theorem W1_arg (c : Dev nD) :
    V1 m ρ c main_arg0 = x0 m c ∧ V1 m ρ c main_arg1 = x1 m c ∧ V1 m ρ c main_arg2 = x2 m c ∧ V1 m ρ c main_arg3 = x3 m c
    ∧ W1 m ρ c (Proc.devRef .tc main_arg4) = x4 m c ∧ W1 m ρ c (Proc.devRef .tc main_arg5) = x5 m c ∧ W1 m ρ c (Proc.devRef .tc main_arg6) = x6 m c
    ∧ W1 m ρ c (Proc.devRef .tc main_arg7) = x7 m c ∧ W1 m ρ c (Proc.devRef .tc main_arg8) = x8 m c ∧ W1 m ρ c (Proc.devRef .tc main_arg9) = x9 m c
    ∧ W1 m ρ c (Proc.devRef .tc main_arg11) = x11 m c := by
  refine ⟨?_, ?_, ?_, ?_, ?_, ?_, ?_, ?_, ?_, ?_, ?_⟩
  · show StableHlo.after hostOps0 (W0 m ρ c) (Proc.devRef .tc main_arg0) = W0 m ρ c (Proc.devRef .tc main_arg0); stretch_keeps
  · show StableHlo.after hostOps0 (W0 m ρ c) (Proc.devRef .tc main_arg1) = W0 m ρ c (Proc.devRef .tc main_arg1); stretch_keeps
  · show StableHlo.after hostOps0 (W0 m ρ c) (Proc.devRef .tc main_arg2) = W0 m ρ c (Proc.devRef .tc main_arg2); stretch_keeps
  · show StableHlo.after hostOps0 (W0 m ρ c) (Proc.devRef .tc main_arg3) = W0 m ρ c (Proc.devRef .tc main_arg3); stretch_keeps
  · show StableHlo.after hostOps0 (W0 m ρ c) (Proc.devRef .tc main_arg4) = W0 m ρ c (Proc.devRef .tc main_arg4); stretch_keeps
  · show StableHlo.after hostOps0 (W0 m ρ c) (Proc.devRef .tc main_arg5) = W0 m ρ c (Proc.devRef .tc main_arg5); stretch_keeps
  · show StableHlo.after hostOps0 (W0 m ρ c) (Proc.devRef .tc main_arg6) = W0 m ρ c (Proc.devRef .tc main_arg6); stretch_keeps
  · show StableHlo.after hostOps0 (W0 m ρ c) (Proc.devRef .tc main_arg7) = W0 m ρ c (Proc.devRef .tc main_arg7); stretch_keeps
  · show StableHlo.after hostOps0 (W0 m ρ c) (Proc.devRef .tc main_arg8) = W0 m ρ c (Proc.devRef .tc main_arg8); stretch_keeps
  · show StableHlo.after hostOps0 (W0 m ρ c) (Proc.devRef .tc main_arg9) = W0 m ρ c (Proc.devRef .tc main_arg9); stretch_keeps
  · show StableHlo.after hostOps0 (W0 m ρ c) (Proc.devRef .tc main_arg11) = W0 m ρ c (Proc.devRef .tc main_arg11); stretch_keeps

/-! ## Region 0 -/

/-- Region 0 leaves the first layer's output in its result array. -/
theorem W2_h1 (c : Dev nD) : W2 m ρ c (Proc.devRef .tc main_v23) = h1 m c := by
  refine (W2_arr m ρ c 5).trans ?_
  rw [Cert.KernelIdeal.Region0.arr_eq (V1 m ρ) c, V1_mean m ρ c, (W1_arg m ρ c).1, (W1_arg m ρ c).2.1, (W1_arg m ρ c).2.2.1, (W1_arg m ρ c).2.2.2.1]
  rfl

/-! ## Between regions 0 and 1 -/

/-- Region 0 writes only its output array: the edge list's columns and the later layers' parameters pass through. -/
theorem W2_keep (c : Dev nD) :
    W2 m ρ c (Proc.devRef .tc main_v1) = val_main_v1 (F := Ideal) (x10 m c) ∧ W2 m ρ c (Proc.devRef .tc main_v3) = val_main_v3 (F := Ideal) (x10 m c)
    ∧ W2 m ρ c (Proc.devRef .tc main_arg4) = x4 m c ∧ W2 m ρ c (Proc.devRef .tc main_arg5) = x5 m c ∧ W2 m ρ c (Proc.devRef .tc main_arg6) = x6 m c
    ∧ W2 m ρ c (Proc.devRef .tc main_arg7) = x7 m c ∧ W2 m ρ c (Proc.devRef .tc main_arg8) = x8 m c ∧ W2 m ρ c (Proc.devRef .tc main_arg9) = x9 m c
    ∧ W2 m ρ c (Proc.devRef .tc main_arg11) = x11 m c :=
  ⟨(W2_of_ne m ρ c main_v1 (by decide)).trans (W1_v1 m ρ c), (W2_of_ne m ρ c main_v3 (by decide)).trans (W1_v3 m ρ c),
   (W2_of_ne m ρ c main_arg4 (by decide)).trans (W1_arg m ρ c).2.2.2.2.1, (W2_of_ne m ρ c main_arg5 (by decide)).trans (W1_arg m ρ c).2.2.2.2.2.1,
   (W2_of_ne m ρ c main_arg6 (by decide)).trans (W1_arg m ρ c).2.2.2.2.2.2.1, (W2_of_ne m ρ c main_arg7 (by decide)).trans (W1_arg m ρ c).2.2.2.2.2.2.2.1,
   (W2_of_ne m ρ c main_arg8 (by decide)).trans (W1_arg m ρ c).2.2.2.2.2.2.2.2.1, (W2_of_ne m ρ c main_arg9 (by decide)).trans (W1_arg m ρ c).2.2.2.2.2.2.2.2.2.1,
   (W2_of_ne m ρ c main_arg11 (by decide)).trans (W1_arg m ρ c).2.2.2.2.2.2.2.2.2.2⟩

set_option maxHeartbeats 4000000 in
/-- Region 1 is entered with the neighbour mean of the first layer's output. -/
theorem V3_mean (c : Dev nD) : V3 m ρ c main_v42 = mean128 (F := Ideal) (h1 m c) (x10 m c) := by
  show StableHlo.after hostOps1 (W2 m ρ c) (Proc.devRef .tc main_v42) = _
  after_results_simp
  rw [W2_h1 m ρ c, (W2_keep m ρ c).1, (W2_keep m ρ c).2.1]
  rfl

/-- The second host stretch writes neither the first layer's output, nor the edge list's columns, nor a parameter. -/
theorem W3_keep (c : Dev nD) :
    V3 m ρ c main_v23 = h1 m c ∧ V3 m ρ c main_arg4 = x4 m c ∧ V3 m ρ c main_arg5 = x5 m c ∧ V3 m ρ c main_arg6 = x6 m c
    ∧ W3 m ρ c (Proc.devRef .tc main_v1) = val_main_v1 (F := Ideal) (x10 m c) ∧ W3 m ρ c (Proc.devRef .tc main_v3) = val_main_v3 (F := Ideal) (x10 m c)
    ∧ W3 m ρ c (Proc.devRef .tc main_arg7) = x7 m c ∧ W3 m ρ c (Proc.devRef .tc main_arg8) = x8 m c ∧ W3 m ρ c (Proc.devRef .tc main_arg9) = x9 m c
    ∧ W3 m ρ c (Proc.devRef .tc main_arg11) = x11 m c := by
  refine ⟨?_, ?_, ?_, ?_, ?_, ?_, ?_, ?_, ?_, ?_⟩
  · exact (show StableHlo.after hostOps1 (W2 m ρ c) (Proc.devRef .tc main_v23) = W2 m ρ c (Proc.devRef .tc main_v23) by stretch_keeps).trans (W2_h1 m ρ c)
  · exact (show StableHlo.after hostOps1 (W2 m ρ c) (Proc.devRef .tc main_arg4) = W2 m ρ c (Proc.devRef .tc main_arg4) by stretch_keeps).trans ((W2_keep m ρ c).2.2.1)
  · exact (show StableHlo.after hostOps1 (W2 m ρ c) (Proc.devRef .tc main_arg5) = W2 m ρ c (Proc.devRef .tc main_arg5) by stretch_keeps).trans ((W2_keep m ρ c).2.2.2.1)
  · exact (show StableHlo.after hostOps1 (W2 m ρ c) (Proc.devRef .tc main_arg6) = W2 m ρ c (Proc.devRef .tc main_arg6) by stretch_keeps).trans ((W2_keep m ρ c).2.2.2.2.1)
  · exact (show StableHlo.after hostOps1 (W2 m ρ c) (Proc.devRef .tc main_v1) = W2 m ρ c (Proc.devRef .tc main_v1) by stretch_keeps).trans ((W2_keep m ρ c).1)
  · exact (show StableHlo.after hostOps1 (W2 m ρ c) (Proc.devRef .tc main_v3) = W2 m ρ c (Proc.devRef .tc main_v3) by stretch_keeps).trans ((W2_keep m ρ c).2.1)
  · exact (show StableHlo.after hostOps1 (W2 m ρ c) (Proc.devRef .tc main_arg7) = W2 m ρ c (Proc.devRef .tc main_arg7) by stretch_keeps).trans ((W2_keep m ρ c).2.2.2.2.2.1)
  · exact (show StableHlo.after hostOps1 (W2 m ρ c) (Proc.devRef .tc main_arg8) = W2 m ρ c (Proc.devRef .tc main_arg8) by stretch_keeps).trans ((W2_keep m ρ c).2.2.2.2.2.2.1)
  · exact (show StableHlo.after hostOps1 (W2 m ρ c) (Proc.devRef .tc main_arg9) = W2 m ρ c (Proc.devRef .tc main_arg9) by stretch_keeps).trans ((W2_keep m ρ c).2.2.2.2.2.2.2.1)
  · exact (show StableHlo.after hostOps1 (W2 m ρ c) (Proc.devRef .tc main_arg11) = W2 m ρ c (Proc.devRef .tc main_arg11) by stretch_keeps).trans ((W2_keep m ρ c).2.2.2.2.2.2.2.2)

/-! ## Region 1 -/

/-- Region 1 leaves the second layer's output in its result array. -/
theorem W4_h2 (c : Dev nD) : W4 m ρ c (Proc.devRef .tc main_v43) = h2 m c := by
  refine (W4_arr m ρ c 5).trans ?_
  rw [Cert.KernelIdeal.Region1.arr_eq (V3 m ρ) c, V3_mean m ρ c, (W3_keep m ρ c).1, (W3_keep m ρ c).2.1, (W3_keep m ρ c).2.2.1, (W3_keep m ρ c).2.2.2.1]
  rfl

/-- Region 1 writes only its output array. -/
theorem W4_keep (c : Dev nD) :
    W4 m ρ c (Proc.devRef .tc main_v1) = val_main_v1 (F := Ideal) (x10 m c) ∧ W4 m ρ c (Proc.devRef .tc main_v3) = val_main_v3 (F := Ideal) (x10 m c)
    ∧ W4 m ρ c (Proc.devRef .tc main_arg7) = x7 m c ∧ W4 m ρ c (Proc.devRef .tc main_arg8) = x8 m c ∧ W4 m ρ c (Proc.devRef .tc main_arg9) = x9 m c
    ∧ W4 m ρ c (Proc.devRef .tc main_arg11) = x11 m c :=
  ⟨(W4_of_ne m ρ c main_v1 (by decide)).trans (W3_keep m ρ c).2.2.2.2.1, (W4_of_ne m ρ c main_v3 (by decide)).trans (W3_keep m ρ c).2.2.2.2.2.1,
   (W4_of_ne m ρ c main_arg7 (by decide)).trans (W3_keep m ρ c).2.2.2.2.2.2.1, (W4_of_ne m ρ c main_arg8 (by decide)).trans (W3_keep m ρ c).2.2.2.2.2.2.2.1,
   (W4_of_ne m ρ c main_arg9 (by decide)).trans (W3_keep m ρ c).2.2.2.2.2.2.2.2.1, (W4_of_ne m ρ c main_arg11 (by decide)).trans (W3_keep m ρ c).2.2.2.2.2.2.2.2.2⟩

/-! ## Between regions 1 and 2 -/

set_option maxHeartbeats 4000000 in
/-- Region 2 is entered with the neighbour mean of the second layer's output. -/
theorem V5_mean (c : Dev nD) : V5 m ρ c main_v63 = mean128 (F := Ideal) (h2 m c) (x10 m c) := by
  show StableHlo.after hostOps2 (W4 m ρ c) (Proc.devRef .tc main_v63) = _
  after_results_simp
  rw [W4_h2 m ρ c, (W4_keep m ρ c).1, (W4_keep m ρ c).2.1]
  rfl

set_option maxHeartbeats 4000000 in
/-- The third host stretch converts the hierarchy matrix to floats and writes neither the second layer's output nor a parameter. -/
theorem W5_keep (c : Dev nD) :
    V5 m ρ c main_v43 = h2 m c ∧ V5 m ρ c main_arg7 = x7 m c ∧ V5 m ρ c main_arg8 = x8 m c ∧ V5 m ρ c main_arg9 = x9 m c
    ∧ V5 m ρ c main_v44 = val_main_v87 (F := Ideal) (x11 m c) := by
  refine ⟨?_, ?_, ?_, ?_, ?_⟩
  · exact (show StableHlo.after hostOps2 (W4 m ρ c) (Proc.devRef .tc main_v43) = W4 m ρ c (Proc.devRef .tc main_v43) by stretch_keeps).trans (W4_h2 m ρ c)
  · exact (show StableHlo.after hostOps2 (W4 m ρ c) (Proc.devRef .tc main_arg7) = W4 m ρ c (Proc.devRef .tc main_arg7) by stretch_keeps).trans ((W4_keep m ρ c).2.2.1)
  · exact (show StableHlo.after hostOps2 (W4 m ρ c) (Proc.devRef .tc main_arg8) = W4 m ρ c (Proc.devRef .tc main_arg8) by stretch_keeps).trans ((W4_keep m ρ c).2.2.2.1)
  · exact (show StableHlo.after hostOps2 (W4 m ρ c) (Proc.devRef .tc main_arg9) = W4 m ρ c (Proc.devRef .tc main_arg9) by stretch_keeps).trans ((W4_keep m ρ c).2.2.2.2.1)
  · show StableHlo.after hostOps2 (W4 m ρ c) (Proc.devRef .tc main_v44) = _
    after_results_simp
    rw [(W4_keep m ρ c).2.2.2.2.2]
    rfl

/-! ## Region 2, and the result -/

/-- Region 2 leaves the result in its output array. -/
theorem W6_out (c : Dev nD) : W6 m ρ c (Proc.devRef .tc main_v64) = out m c := by
  refine (W6_arr m ρ c 6).trans ?_
  rw [Cert.KernelIdeal.Region2.arr_eq (V5 m ρ) c, V5_mean m ρ c, (W5_keep m ρ c).1, (W5_keep m ρ c).2.1, (W5_keep m ρ c).2.2.1, (W5_keep m ρ c).2.2.2.1, (W5_keep m ρ c).2.2.2.2]
  rfl

/-- The result is the reference's last stage of the same arguments: the layers composed. -/
theorem out_eq_stage (c : Dev nD) :
    out m c = Cert.ReferenceIdeal.Read.val_main_v93 (F := Ideal) (x0 m c) (x1 m c) (x2 m c) (x3 m c) (x4 m c) (x5 m c) (x6 m c) (x7 m c) (x8 m c) (x9 m c) (x10 m c) (x11 m c) := by
  rw [Cert.Layers.stage_out, Cert.Layers.stage_mean2, Cert.Layers.stage_h2, Cert.Layers.stage_mean1, Cert.Layers.stage_h1]
  rfl

end Cert.KernelIdeal.Fold

end
-- ==== Proof.lean ====
/-
  The certificate of a three-layer graph network: two dense layers with `max (·, 0)`, a third with the logistic function
  and a class-hierarchy maximum, each over the mean of a node's in-neighbours.

  The kernel program computes every neighbour mean on the host exactly as the reference does (gather the edges' source
  rows, add them into the destination rows, divide by the in-degree, at least one) and runs each dense layer as a region
  over 20 blocks of 5000 nodes; the reference computes the layers with whole-array products. Over the extended reals the
  two agree with no condition on the inputs: a change of float format is the identity, a product accumulated from zero is
  the plain sum over the contracted feature, the kernel's logistic is `1 / (1 + exp (-y))` as the reference spells it, and
  the hierarchy maximum differs only in the order of the two factors of each product.

  The frames of the two kernel programs are generated. The reference's frame is its generated run. The idealization
  rewrote nothing, so that claim is trivial. For the value claim the kernel program's launch is stated once more with
  the result array named, that array is read back through the program's six segments to the layers composed, and the
  reference's run ends at the same composition.
-/
import proofs.«122154_j34763465294563_1_alg».proof.Defs
import proofs.«122154_j34763465294563_1_alg».proof.Proof.Gen.Kernel
import proofs.«122154_j34763465294563_1_alg».proof.Proof.Gen.Kernel.Skeleton
import proofs.«122154_j34763465294563_1_alg».proof.Proof.Gen.Kernel.Launch
import proofs.«122154_j34763465294563_1_alg».proof.Proof.Gen.Kernel.Points
import proofs.«122154_j34763465294563_1_alg».proof.Proof.Gen.Kernel.Frame
import proofs.«122154_j34763465294563_1_alg».proof.Proof.Gen.KernelIdeal
import proofs.«122154_j34763465294563_1_alg».proof.Proof.Gen.KernelIdeal.Skeleton
import proofs.«122154_j34763465294563_1_alg».proof.Proof.Gen.KernelIdeal.Launch
import proofs.«122154_j34763465294563_1_alg».proof.Proof.Gen.KernelIdeal.Points
import proofs.«122154_j34763465294563_1_alg».proof.Proof.Gen.KernelIdeal.Frame
import proofs.«122154_j34763465294563_1_alg».proof.Proof.Gen.ReferenceIdeal
import proofs.«122154_j34763465294563_1_alg».proof.Proof.Gen.ReferenceIdeal.Run
import proofs.«122154_j34763465294563_1_alg».proof.Proof.Gen.ReferenceIdeal.Read
import proofs.«122154_j34763465294563_1_alg».proof.Proof.Gen.Pre_finite_inputs
import proofs.«122154_j34763465294563_1_alg».proof.Proof.KernelRun
import proofs.«122154_j34763465294563_1_alg».proof.Proof.Fold
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with the same result array: the kernel
    program's is the three layers composed, read through its segments; the reference's run ends at its last stage, which
    is that composition of the same arguments. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun _ h c => ⟨(h c).1.trans (Cert.KernelIdeal.Fold.W6_out m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    show Cert.ReferenceIdeal.Value.res_main_v93 m' c = Cert.KernelIdeal.Fold.out m c
    rw [Cert.ReferenceIdeal.Read.val_main_v93_eq, Cert.KernelIdeal.Fold.out_eq_stage, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
